-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x128 : Shape := ⟨3, ![64, 1024, 128]⟩
abbrev S64x1024x128x8 : Shape := ⟨4, ![64, 1024, 128, 8]⟩
abbrev S64 : Shape := ⟨1, ![64]⟩
abbrev S64x64 : Shape := ⟨2, ![64, 64]⟩
abbrev S_ : Shape := ⟨0, ![]⟩

class Facts : Prop where
  bcast_S_S64x1024x128 : S_.BroadcastsInDim S64x1024x128 (![] : Fin 0 → Fin S64x1024x128.rank)
  reducesTo_S64x1024x128_S_d0_1_2 : S64x1024x128.ReducesTo [0, 1, 2] S_
  h_S_ : 0 < S_.numel
  bcast_S_S64x1024x128x8 : S_.BroadcastsInDim S64x1024x128x8 (![] : Fin 0 → Fin S64x1024x128x8.rank)
  reducesTo_S64x1024x128x8_S_d0_1_2_3 : S64x1024x128x8.ReducesTo [0, 1, 2, 3] S_

variable [Facts]

def fn {F : FTy → Type} [FloatOps F] (main_arg0 : FVec F S64x1024x128 .f32) (main_arg1 : FVec F S64x1024x128x8 .f32) (main_arg2 : IVec S64 32) (main_arg3 : IVec S64x64 32) : IVec S_ 1 :=
  let main_v0 : FVec F S64x1024x128 .f32 := Host.absf main_arg0
  let main_cst : FVec F S_ .f32 := constant S_ .f32 0x7F800000#32
  let main_v1 : FVec F S64x1024x128 .f32 := broadcastInDim S64x1024x128 ![] bcast_S_S64x1024x128 main_cst
  let main_v2 : IVec S64x1024x128 1 := cmpf .olt main_v0 main_v1
  let main_c : IVec S_ 1 := constantI S_ 1 1#1
  let main_v3 : IVec S_ 1 := (fun x v => Host.reduce IntOp.andi x v reducesTo_S64x1024x128_S_d0_1_2 h_S_) main_v2 main_c
  let main_v4 : FVec F S64x1024x128x8 .f32 := Host.absf main_arg1
  let main_cst_0 : FVec F S_ .f32 := constant S_ .f32 0x7F800000#32
  let main_v5 : FVec F S64x1024x128x8 .f32 := broadcastInDim S64x1024x128x8 ![] bcast_S_S64x1024x128x8 main_cst_0
  let main_v6 : IVec S64x1024x128x8 1 := cmpf .olt main_v4 main_v5
  let main_c_1 : IVec S_ 1 := constantI S_ 1 1#1
  let main_v7 : IVec S_ 1 := (fun x v => Host.reduce IntOp.andi x v reducesTo_S64x1024x128x8_S_d0_1_2_3 h_S_) main_v6 main_c_1
  let main_v8 : IVec S_ 1 := andi main_v3 main_v7
  main_v8
-- ==== Kernel.lean ====
abbrev S64x1024x128 : Shape := ⟨3, ![64, 1024, 128]⟩
abbrev S64x1024x128x8 : Shape := ⟨4, ![64, 1024, 128, 8]⟩
abbrev S64 : Shape := ⟨1, ![64]⟩
abbrev S64x64 : Shape := ⟨2, ![64, 64]⟩
abbrev S8 : Shape := ⟨1, ![8]⟩
abbrev S65536x128 : Shape := ⟨2, ![65536, 128]⟩
abbrev S_ : Shape := ⟨0, ![]⟩
abbrev S64x64x1 : Shape := ⟨3, ![64, 64, 1]⟩
abbrev S64x64x128 : Shape := ⟨3, ![64, 64, 128]⟩
abbrev S64x128 : Shape := ⟨2, ![64, 128]⟩
abbrev S64x1x128 : Shape := ⟨3, ![64, 1, 128]⟩
abbrev S64x1024x8x128 : Shape := ⟨4, ![64, 1024, 8, 128]⟩
abbrev S64x1024x1024 : Shape := ⟨3, ![64, 1024, 1024]⟩
abbrev S64x1x8 : Shape := ⟨3, ![64, 1, 8]⟩
abbrev S1x1024x1024 : Shape := ⟨3, ![1, 1024, 1024]⟩
abbrev S1x1024x128 : Shape := ⟨3, ![1, 1024, 128]⟩
abbrev S1x1x8 : Shape := ⟨3, ![1, 1, 8]⟩
abbrev S1 : Shape := ⟨1, ![1]⟩
abbrev S1024x1 : Shape := ⟨2, ![1024, 1]⟩
abbrev S1x1023x128 : Shape := ⟨3, ![1, 1023, 128]⟩
abbrev S1023x128 : Shape := ⟨2, ![1023, 128]⟩
abbrev S1023x1 : Shape := ⟨2, ![1023, 1]⟩
abbrev S1023 : Shape := ⟨1, ![1023]⟩
abbrev S1x1 : Shape := ⟨2, ![1, 1]⟩
abbrev S1x1022x128 : Shape := ⟨3, ![1, 1022, 128]⟩
abbrev S1022x128 : Shape := ⟨2, ![1022, 128]⟩
abbrev S1022x1 : Shape := ⟨2, ![1022, 1]⟩
abbrev S1022 : Shape := ⟨1, ![1022]⟩
abbrev S1x1021x128 : Shape := ⟨3, ![1, 1021, 128]⟩
abbrev S1021x128 : Shape := ⟨2, ![1021, 128]⟩
abbrev S1021x1 : Shape := ⟨2, ![1021, 1]⟩
abbrev S1021 : Shape := ⟨1, ![1021]⟩
abbrev S1x1020x128 : Shape := ⟨3, ![1, 1020, 128]⟩
abbrev S1020x128 : Shape := ⟨2, ![1020, 128]⟩
abbrev S1020x1 : Shape := ⟨2, ![1020, 1]⟩
abbrev S1020 : Shape := ⟨1, ![1020]⟩
abbrev S1x1019x128 : Shape := ⟨3, ![1, 1019, 128]⟩
abbrev S1019x128 : Shape := ⟨2, ![1019, 128]⟩
abbrev S1019x1 : Shape := ⟨2, ![1019, 1]⟩
abbrev S1019 : Shape := ⟨1, ![1019]⟩
abbrev S1x1018x128 : Shape := ⟨3, ![1, 1018, 128]⟩
abbrev S1018x128 : Shape := ⟨2, ![1018, 128]⟩
abbrev S1018x1 : Shape := ⟨2, ![1018, 1]⟩
abbrev S1018 : Shape := ⟨1, ![1018]⟩
abbrev S1x1017x128 : Shape := ⟨3, ![1, 1017, 128]⟩
abbrev S1017x128 : Shape := ⟨2, ![1017, 128]⟩
abbrev S1017x1 : Shape := ⟨2, ![1017, 1]⟩
abbrev S1017 : Shape := ⟨1, ![1017]⟩
abbrev S1x1016x128 : Shape := ⟨3, ![1, 1016, 128]⟩
abbrev S1016x128 : Shape := ⟨2, ![1016, 128]⟩
abbrev S1016x1 : Shape := ⟨2, ![1016, 1]⟩
abbrev S1016 : Shape := ⟨1, ![1016]⟩
abbrev S1x8 : Shape := ⟨2, ![1, 8]⟩
abbrev S64x8 : Shape := ⟨2, ![64, 8]⟩

abbrev nBuf : Space → Nat
  | .hbm => 31
  | .vmem => 6
  | .smem => 1
  | _ => 0

abbrev bufTy : (tb : Table) → Fin (tcTables nBuf tb) → BufTy
  | .hbm, ⟨0, _⟩ => ⟨S64x1024x128, .f32⟩
  | .hbm, ⟨1, _⟩ => ⟨S64x1024x128x8, .f32⟩
  | .hbm, ⟨2, _⟩ => ⟨S64x64, .i32⟩
  | .hbm, ⟨3, _⟩ => ⟨S8, .f32⟩
  | .hbm, ⟨4, _⟩ => ⟨S65536x128, .f32⟩
  | .hbm, ⟨5, _⟩ => ⟨S_, .i32⟩
  | .hbm, ⟨6, _⟩ => ⟨S64x64, .i32⟩
  | .hbm, ⟨7, _⟩ => ⟨S64x64, .i1⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S64x64, .i32⟩
  | .hbm, ⟨12, _⟩ => ⟨S64x64x1, .i32⟩
  | .hbm, ⟨13, _⟩ => ⟨S64x64x128, .f32⟩
  | .hbm, ⟨14, _⟩ => ⟨S_, .f32⟩
  | .hbm, ⟨15, _⟩ => ⟨S64x128, .f32⟩
  | .hbm, ⟨16, _⟩ => ⟨S64x1x128, .f32⟩
  | .hbm, ⟨17, _⟩ => ⟨S64x1024x128, .f32⟩
  | .hbm, ⟨18, _⟩ => ⟨S64x1024x128, .f32⟩
  | .hbm, ⟨19, _⟩ => ⟨S64x1024x8x128, .f32⟩
  | .hbm, ⟨20, _⟩ => ⟨S64x1024x1024, .f32⟩
  | .hbm, ⟨21, _⟩ => ⟨S64x1x8, .f32⟩
  | .hbm, ⟨22, _⟩ => ⟨S64x8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S1x1x8, .f32⟩
  | .local _ .vmem, ⟨5, _⟩ => ⟨S1x1x8, .f32⟩
  | .local _ .smem, ⟨0, _⟩ => ⟨S64, .i32⟩
  | _, _ => ⟨S64x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x1024x128_S65536x128 : S64x1024x128.ShapeCasts S65536x128
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  reducesTo_S64x64x128_S64x128_d1 : S64x64x128.ReducesTo [1] S64x128
  h_S_ : 0 < S_.numel
  bcast_S64x128_S64x1x128_0_2 : S64x128.BroadcastsInDim S64x1x128 (![0, 2] : Fin 2 → Fin S64x1x128.rank)
  bcast_S64x1x128_S64x1024x128_0_1_2 : S64x1x128.BroadcastsInDim S64x1024x128 (![0, 1, 2] : Fin 3 → Fin S64x1024x128.rank)
  transposes_S64x1024x128x8_S64x1024x8x128_0_1_3_2 : S64x1024x128x8.Transposes [0, 1, 3, 2] S64x1024x8x128
  shapeCasts_S64x1024x8x128_S64x1024x1024 : S64x1024x8x128.ShapeCasts S64x1024x1024
  numel1_S1 : S1.numel = 1
  iota_S1024x1_d0_w32 : S1024x1.Iotas .tc 32 [0]
  natLt_1_32 : 1 < 32
  inb_S1x1024x1024_S1x1023x128_0_0_0 : ∀ a, (![0, 0, 0] : Fin 3 → Nat) a + S1x1023x128.size a ≤ S1x1024x1024.size a
  h_S1x1023x128 : 0 < S1x1023x128.numel
  shapeCasts_S1x1023x128_S1023x128 : S1x1023x128.ShapeCasts S1023x128
  slices_S1024x1_o0_0_S1023x1 : S1024x1.Slices ![0, 0] S1023x1
  broadcasts_S1023x1_S1023x128 : S1023x1.Broadcasts S1023x128
  inb_S1x1024x128_S1x1023x128_0_1_0 : ∀ a, (![0, 1, 0] : Fin 3 → Nat) a + S1x1023x128.size a ≤ S1x1024x128.size a
  reduces_S1023x128_S1023 : S1023x128.Reduces [1] S1023
  shapeCasts_S1023_S1023x1 : S1023.ShapeCasts S1023x1
  reduces_S1023x1_S1 : S1023x1.Reduces [0] S1
  shapeCasts_S1_S1x1 : S1.ShapeCasts S1x1
  inb_S1x1024x1024_S1x1022x128_0_0_128 : ∀ a, (![0, 0, 128] : Fin 3 → Nat) a + S1x1022x128.size a ≤ S1x1024x1024.size a
  h_S1x1022x128 : 0 < S1x1022x128.numel
  shapeCasts_S1x1022x128_S1022x128 : S1x1022x128.ShapeCasts S1022x128
  slices_S1024x1_o0_0_S1022x1 : S1024x1.Slices ![0, 0] S1022x1
  broadcasts_S1022x1_S1022x128 : S1022x1.Broadcasts S1022x128
  inb_S1x1024x128_S1x1022x128_0_2_0 : ∀ a, (![0, 2, 0] : Fin 3 → Nat) a + S1x1022x128.size a ≤ S1x1024x128.size a
  reduces_S1022x128_S1022 : S1022x128.Reduces [1] S1022
  shapeCasts_S1022_S1022x1 : S1022.ShapeCasts S1022x1
  reduces_S1022x1_S1 : S1022x1.Reduces [0] S1
  inb_S1x1024x1024_S1x1021x128_0_0_256 : ∀ a, (![0, 0, 256] : Fin 3 → Nat) a + S1x1021x128.size a ≤ S1x1024x1024.size a
  h_S1x1021x128 : 0 < S1x1021x128.numel
  shapeCasts_S1x1021x128_S1021x128 : S1x1021x128.ShapeCasts S1021x128
  slices_S1024x1_o0_0_S1021x1 : S1024x1.Slices ![0, 0] S1021x1
  broadcasts_S1021x1_S1021x128 : S1021x1.Broadcasts S1021x128
  inb_S1x1024x128_S1x1021x128_0_3_0 : ∀ a, (![0, 3, 0] : Fin 3 → Nat) a + S1x1021x128.size a ≤ S1x1024x128.size a
  reduces_S1021x128_S1021 : S1021x128.Reduces [1] S1021
  shapeCasts_S1021_S1021x1 : S1021.ShapeCasts S1021x1
  reduces_S1021x1_S1 : S1021x1.Reduces [0] S1
  inb_S1x1024x1024_S1x1020x128_0_0_384 : ∀ a, (![0, 0, 384] : Fin 3 → Nat) a + S1x1020x128.size a ≤ S1x1024x1024.size a
  h_S1x1020x128 : 0 < S1x1020x128.numel
  shapeCasts_S1x1020x128_S1020x128 : S1x1020x128.ShapeCasts S1020x128
  slices_S1024x1_o0_0_S1020x1 : S1024x1.Slices ![0, 0] S1020x1
  broadcasts_S1020x1_S1020x128 : S1020x1.Broadcasts S1020x128
  inb_S1x1024x128_S1x1020x128_0_4_0 : ∀ a, (![0, 4, 0] : Fin 3 → Nat) a + S1x1020x128.size a ≤ S1x1024x128.size a
  reduces_S1020x128_S1020 : S1020x128.Reduces [1] S1020
  shapeCasts_S1020_S1020x1 : S1020.ShapeCasts S1020x1
  reduces_S1020x1_S1 : S1020x1.Reduces [0] S1
  inb_S1x1024x1024_S1x1019x128_0_0_512 : ∀ a, (![0, 0, 512] : Fin 3 → Nat) a + S1x1019x128.size a ≤ S1x1024x1024.size a
  h_S1x1019x128 : 0 < S1x1019x128.numel
  shapeCasts_S1x1019x128_S1019x128 : S1x1019x128.ShapeCasts S1019x128
  slices_S1024x1_o0_0_S1019x1 : S1024x1.Slices ![0, 0] S1019x1
  broadcasts_S1019x1_S1019x128 : S1019x1.Broadcasts S1019x128
  inb_S1x1024x128_S1x1019x128_0_5_0 : ∀ a, (![0, 5, 0] : Fin 3 → Nat) a + S1x1019x128.size a ≤ S1x1024x128.size a
  reduces_S1019x128_S1019 : S1019x128.Reduces [1] S1019
  shapeCasts_S1019_S1019x1 : S1019.ShapeCasts S1019x1
  reduces_S1019x1_S1 : S1019x1.Reduces [0] S1
  inb_S1x1024x1024_S1x1018x128_0_0_640 : ∀ a, (![0, 0, 640] : Fin 3 → Nat) a + S1x1018x128.size a ≤ S1x1024x1024.size a
  h_S1x1018x128 : 0 < S1x1018x128.numel
  shapeCasts_S1x1018x128_S1018x128 : S1x1018x128.ShapeCasts S1018x128
  slices_S1024x1_o0_0_S1018x1 : S1024x1.Slices ![0, 0] S1018x1
  broadcasts_S1018x1_S1018x128 : S1018x1.Broadcasts S1018x128
  inb_S1x1024x128_S1x1018x128_0_6_0 : ∀ a, (![0, 6, 0] : Fin 3 → Nat) a + S1x1018x128.size a ≤ S1x1024x128.size a
  reduces_S1018x128_S1018 : S1018x128.Reduces [1] S1018
  shapeCasts_S1018_S1018x1 : S1018.ShapeCasts S1018x1
  reduces_S1018x1_S1 : S1018x1.Reduces [0] S1
  inb_S1x1024x1024_S1x1017x128_0_0_768 : ∀ a, (![0, 0, 768] : Fin 3 → Nat) a + S1x1017x128.size a ≤ S1x1024x1024.size a
  h_S1x1017x128 : 0 < S1x1017x128.numel
  shapeCasts_S1x1017x128_S1017x128 : S1x1017x128.ShapeCasts S1017x128
  slices_S1024x1_o0_0_S1017x1 : S1024x1.Slices ![0, 0] S1017x1
  broadcasts_S1017x1_S1017x128 : S1017x1.Broadcasts S1017x128
  inb_S1x1024x128_S1x1017x128_0_7_0 : ∀ a, (![0, 7, 0] : Fin 3 → Nat) a + S1x1017x128.size a ≤ S1x1024x128.size a
  reduces_S1017x128_S1017 : S1017x128.Reduces [1] S1017
  shapeCasts_S1017_S1017x1 : S1017.ShapeCasts S1017x1
  reduces_S1017x1_S1 : S1017x1.Reduces [0] S1
  inb_S1x1024x1024_S1x1016x128_0_0_896 : ∀ a, (![0, 0, 896] : Fin 3 → Nat) a + S1x1016x128.size a ≤ S1x1024x1024.size a
  h_S1x1016x128 : 0 < S1x1016x128.numel
  shapeCasts_S1x1016x128_S1016x128 : S1x1016x128.ShapeCasts S1016x128
  slices_S1024x1_o0_0_S1016x1 : S1024x1.Slices ![0, 0] S1016x1
  broadcasts_S1016x1_S1016x128 : S1016x1.Broadcasts S1016x128
  inb_S1x1024x128_S1x1016x128_0_8_0 : ∀ a, (![0, 8, 0] : Fin 3 → Nat) a + S1x1016x128.size a ≤ S1x1024x128.size a
  reduces_S1016x128_S1016 : S1016x128.Reduces [1] S1016
  shapeCasts_S1016_S1016x1 : S1016.ShapeCasts S1016x1
  reduces_S1016x1_S1 : S1016x1.Reduces [0] S1
  concatenates_S1x1_S1x1_S1x1_S1x1_S1x1_S1x1_S1x1_S1x1_S1x8_d1 : Shape.Concatenates [S1x1, S1x1, S1x1, S1x1, S1x1, S1x1, S1x1, S1x1] S1x8 1
  inb_S1x1x8_S1x1x8_0_0_0 : ∀ a, (![0, 0, 0] : Fin 3 → Nat) a + S1x1x8.size a ≤ S1x1x8.size a
  h_S1x1x8 : 0 < S1x1x8.numel
  shapeCasts_S1x1x8_S1x8 : S1x1x8.ShapeCasts S1x8
  shapeCasts_S1x8_S1x1x8 : S1x8.ShapeCasts S1x1x8
  shapeCasts_S64x1x8_S64x8 : S64x1x8.ShapeCasts S64x8
  reducesTo_S64x8_S8_d0 : S64x8.ReducesTo [0] S8
  reducesTo_S8_S_d0 : S8.ReducesTo [0] S_
  gather_S65536x128_S64x64x1_S64x64x128_2_0_n_n_0_2_1128_wf : GatherDims.WF S65536x128 S64x64x1 S64x64x128 [2] [0] [] [0] [] 2 ![1, 128]
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .f32 = 32 ∨ (Rect.block (s := S64x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S64x1024x128.size a
  hwx0_1 : ∀ i : grid0.Coords, EltTy.bits .f32 = 32 ∨ (Rect.block (s := S64x1024x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8.size a ≤ S64x1x8.size a
  hwx0_2 : ∀ i : grid0.Coords, EltTy.bits .f32 = 32 ∨ (Rect.block (s := S64x1x8) S1x1x8.size (cc0_transform_2 i) (hinb0_2 i)).WholeWords (EltTy.packing .f32)

variable [Facts₀]

def gather_S65536x128_S64x64x1_S64x64x128_2_0_n_n_0_2_1128 : GatherDims S65536x128 S64x64x1 S64x64x128 where
  offsetDims := [2]
  collapsedSliceDims := [0]
  operandBatchingDims := []
  startIndicesBatchingDims := []
  startIndexMap := [0]
  indexVectorDim := 2
  sliceSizes := ![1, 128]
  wf := gather_S65536x128_S64x64x1_S64x64x128_2_0_n_n_0_2_1128_wf

abbrev spec0_0 : Pipeline.WinSpec sig grid0.rank :=
  Pipeline.WinSpec.ofSpec (Memref.whole main_v13) S1x1024x1024.size reads0_0 false false 2 stage0_0 sem0_0 nbuf0_0 hstage0_0

abbrev spec0_1 : Pipeline.WinSpec sig grid0.rank :=
  Pipeline.WinSpec.ofSpec (Memref.whole main_v11) S1x1024x128.size reads0_1 false false 2 stage0_1 sem0_1 nbuf0_1 hstage0_1

abbrev spec0_2 : Pipeline.WinSpec sig grid0.rank :=
  Pipeline.WinSpec.ofSpec (Memref.whole main_v14) S1x1x8.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S64x1024x128 : Shape := ⟨3, ![64, 1024, 128]⟩
abbrev S64x1024x128x8 : Shape := ⟨4, ![64, 1024, 128, 8]⟩
abbrev S64 : Shape := ⟨1, ![64]⟩
abbrev S64x64 : Shape := ⟨2, ![64, 64]⟩
abbrev S1024 : Shape := ⟨1, ![1024]⟩
abbrev S1x1024 : Shape := ⟨2, ![1, 1024]⟩
abbrev S64x1 : Shape := ⟨2, ![64, 1]⟩
abbrev S64x1024 : Shape := ⟨2, ![64, 1024]⟩
abbrev S65536x128 : Shape := ⟨2, ![65536, 128]⟩
abbrev S_ : Shape := ⟨0, ![]⟩
abbrev S64x64x1 : Shape := ⟨3, ![64, 64, 1]⟩
abbrev S64x64x128 : Shape := ⟨3, ![64, 64, 128]⟩
abbrev S64x1024x1x1 : Shape := ⟨4, ![64, 1024, 1, 1]⟩
abbrev S64x1023x128x1 : Shape := ⟨4, ![64, 1023, 128, 1]⟩
abbrev S64x1023x128 : Shape := ⟨3, ![64, 1023, 128]⟩
abbrev S64x1023 : Shape := ⟨2, ![64, 1023]⟩
abbrev S64x1023x64 : Shape := ⟨3, ![64, 1023, 64]⟩
abbrev S64x1022x128x1 : Shape := ⟨4, ![64, 1022, 128, 1]⟩
abbrev S64x1022x128 : Shape := ⟨3, ![64, 1022, 128]⟩
abbrev S64x1022 : Shape := ⟨2, ![64, 1022]⟩
abbrev S64x1022x64 : Shape := ⟨3, ![64, 1022, 64]⟩
abbrev S64x1021x128x1 : Shape := ⟨4, ![64, 1021, 128, 1]⟩
abbrev S64x1021x128 : Shape := ⟨3, ![64, 1021, 128]⟩
abbrev S64x1021 : Shape := ⟨2, ![64, 1021]⟩
abbrev S64x1021x64 : Shape := ⟨3, ![64, 1021, 64]⟩
abbrev S64x1020x128x1 : Shape := ⟨4, ![64, 1020, 128, 1]⟩
abbrev S64x1020x128 : Shape := ⟨3, ![64, 1020, 128]⟩
abbrev S64x1020 : Shape := ⟨2, ![64, 1020]⟩
abbrev S64x1020x64 : Shape := ⟨3, ![64, 1020, 64]⟩
abbrev S64x1019x128x1 : Shape := ⟨4, ![64, 1019, 128, 1]⟩
abbrev S64x1019x128 : Shape := ⟨3, ![64, 1019, 128]⟩
abbrev S64x1019 : Shape := ⟨2, ![64, 1019]⟩
abbrev S64x1019x64 : Shape := ⟨3, ![64, 1019, 64]⟩
abbrev S64x1018x128x1 : Shape := ⟨4, ![64, 1018, 128, 1]⟩
abbrev S64x1018x128 : Shape := ⟨3, ![64, 1018, 128]⟩
abbrev S64x1018 : Shape := ⟨2, ![64, 1018]⟩
abbrev S64x1018x64 : Shape := ⟨3, ![64, 1018, 64]⟩
abbrev S64x1017x128x1 : Shape := ⟨4, ![64, 1017, 128, 1]⟩
abbrev S64x1017x128 : Shape := ⟨3, ![64, 1017, 128]⟩
abbrev S64x1017 : Shape := ⟨2, ![64, 1017]⟩
abbrev S64x1017x64 : Shape := ⟨3, ![64, 1017, 64]⟩
abbrev S64x1016x128x1 : Shape := ⟨4, ![64, 1016, 128, 1]⟩
abbrev S64x1016x128 : Shape := ⟨3, ![64, 1016, 128]⟩
abbrev S64x1016 : Shape := ⟨2, ![64, 1016]⟩
abbrev S64x1016x64 : Shape := ⟨3, ![64, 1016, 64]⟩
abbrev S1 : Shape := ⟨1, ![1]⟩
abbrev S8 : Shape := ⟨1, ![8]⟩

abbrev nBuf : Space → Nat
  | .hbm => 181
  | .vmem => 0
  | .smem => 0
  | _ => 0

abbrev hbmTy0_0 (i : Nat) : BufTy := match i % 128 with
  | 0 => ⟨S64x1024x128, .f32⟩
  | 1 => ⟨S64x1024x128x8, .f32⟩
  | 2 => ⟨S64, .i32⟩
  | 3 => ⟨S64x64, .i32⟩
  | 4 => ⟨S1024, .i32⟩
  | 5 => ⟨S1x1024, .i32⟩
  | 6 => ⟨S64x1, .i32⟩
  | 7 => ⟨S64x1024, .i32⟩
  | 8 => ⟨S64x1024, .i32⟩
  | 9 => ⟨S64x1024, .i1⟩
  | 10 => ⟨S64x1024, .f32⟩
  | 11 => ⟨S65536x128, .f32⟩
  | 12 => ⟨S_, .i32⟩
  | 13 => ⟨S64x64, .i32⟩
  | 14 => ⟨S64x64, .i1⟩
  | 15 => ⟨S_, .i32⟩
  | 16 => ⟨S64x64, .i32⟩
  | 17 => ⟨S64x64, .i32⟩
  | 18 => ⟨S64x64, .i32⟩
  | 19 => ⟨S64x64x1, .i32⟩
  | 20 => ⟨S64x64x128, .f32⟩
  | 21 => ⟨S64x1024x1x1, .f32⟩
  | 22 => ⟨S64x1024x128x8, .f32⟩
  | 23 => ⟨S64x1024x128x8, .f32⟩
  | 24 => ⟨S64x1023x128x1, .f32⟩
  | 25 => ⟨S64x1023x128, .f32⟩
  | 26 => ⟨S64x1023x128, .f32⟩
  | 27 => ⟨S64x1023x128, .f32⟩
  | 28 => ⟨S_, .f32⟩
  | 29 => ⟨S64x1023, .f32⟩
  | 30 => ⟨S64x1023, .f32⟩
  | 31 => ⟨S64x1023x64, .f32⟩
  | 32 => ⟨S_, .f32⟩
  | 33 => ⟨S64x1023, .f32⟩
  | 34 => ⟨S64x1023, .f32⟩
  | 35 => ⟨S64x1023, .f32⟩
  | 36 => ⟨S64x1023, .f32⟩
  | 37 => ⟨S_, .f32⟩
  | 38 => ⟨S_, .f32⟩
  | 39 => ⟨S_, .f32⟩
  | 40 => ⟨S_, .f32⟩
  | 41 => ⟨S_, .f32⟩
  | 42 => ⟨S64x1022x128x1, .f32⟩
  | 43 => ⟨S64x1022x128, .f32⟩
  | 44 => ⟨S64x1022x128, .f32⟩
  | 45 => ⟨S64x1022x128, .f32⟩
  | 46 => ⟨S_, .f32⟩
  | 47 => ⟨S64x1022, .f32⟩
  | 48 => ⟨S64x1022, .f32⟩
  | 49 => ⟨S64x1022x64, .f32⟩
  | 50 => ⟨S_, .f32⟩
  | 51 => ⟨S64x1022, .f32⟩
  | 52 => ⟨S64x1022, .f32⟩
  | 53 => ⟨S64x1022, .f32⟩
  | 54 => ⟨S64x1022, .f32⟩
  | 55 => ⟨S_, .f32⟩
  | 56 => ⟨S_, .f32⟩
  | 57 => ⟨S_, .f32⟩
  | 58 => ⟨S_, .f32⟩
  | 59 => ⟨S_, .f32⟩
  | 60 => ⟨S64x1021x128x1, .f32⟩
  | 61 => ⟨S64x1021x128, .f32⟩
  | 62 => ⟨S64x1021x128, .f32⟩
  | 63 => ⟨S64x1021x128, .f32⟩
  | 64 => ⟨S_, .f32⟩
  | 65 => ⟨S64x1021, .f32⟩
  | 66 => ⟨S64x1021, .f32⟩
  | 67 => ⟨S64x1021x64, .f32⟩
  | 68 => ⟨S_, .f32⟩
  | 69 => ⟨S64x1021, .f32⟩
  | 70 => ⟨S64x1021, .f32⟩
  | 71 => ⟨S64x1021, .f32⟩
  | 72 => ⟨S64x1021, .f32⟩
  | 73 => ⟨S_, .f32⟩
  | 74 => ⟨S_, .f32⟩
  | 75 => ⟨S_, .f32⟩
  | 76 => ⟨S_, .f32⟩
  | 77 => ⟨S_, .f32⟩
  | 78 => ⟨S64x1020x128x1, .f32⟩
  | 79 => ⟨S64x1020x128, .f32⟩
  | 80 => ⟨S64x1020x128, .f32⟩
  | 81 => ⟨S64x1020x128, .f32⟩
  | 82 => ⟨S_, .f32⟩
  | 83 => ⟨S64x1020, .f32⟩
  | 84 => ⟨S64x1020, .f32⟩
  | 85 => ⟨S64x1020x64, .f32⟩
  | 86 => ⟨S_, .f32⟩
  | 87 => ⟨S64x1020, .f32⟩
  | 88 => ⟨S64x1020, .f32⟩
  | 89 => ⟨S64x1020, .f32⟩
  | 90 => ⟨S64x1020, .f32⟩
  | 91 => ⟨S_, .f32⟩
  | 92 => ⟨S_, .f32⟩
  | 93 => ⟨S_, .f32⟩
  | 94 => ⟨S_, .f32⟩
  | 95 => ⟨S_, .f32⟩
  | 96 => ⟨S64x1019x128x1, .f32⟩
  | 97 => ⟨S64x1019x128, .f32⟩
  | 98 => ⟨S64x1019x128, .f32⟩
  | 99 => ⟨S64x1019x128, .f32⟩
  | 100 => ⟨S_, .f32⟩
  | 101 => ⟨S64x1019, .f32⟩
  | 102 => ⟨S64x1019, .f32⟩
  | 103 => ⟨S64x1019x64, .f32⟩
  | 104 => ⟨S_, .f32⟩
  | 105 => ⟨S64x1019, .f32⟩
  | 106 => ⟨S64x1019, .f32⟩
  | 107 => ⟨S64x1019, .f32⟩
  | 108 => ⟨S64x1019, .f32⟩
  | 109 => ⟨S_, .f32⟩
  | 110 => ⟨S_, .f32⟩
  | 111 => ⟨S_, .f32⟩
  | 112 => ⟨S_, .f32⟩
  | 113 => ⟨S_, .f32⟩
  | 114 => ⟨S64x1018x128x1, .f32⟩
  | 115 => ⟨S64x1018x128, .f32⟩
  | 116 => ⟨S64x1018x128, .f32⟩
  | 117 => ⟨S64x1018x128, .f32⟩
  | 118 => ⟨S_, .f32⟩
  | 119 => ⟨S64x1018, .f32⟩
  | 120 => ⟨S64x1018, .f32⟩
  | 121 => ⟨S64x1018x64, .f32⟩
  | 122 => ⟨S_, .f32⟩
  | 123 => ⟨S64x1018, .f32⟩
  | 124 => ⟨S64x1018, .f32⟩
  | 125 => ⟨S64x1018, .f32⟩
  | 126 => ⟨S64x1018, .f32⟩
  | 127 => ⟨S_, .f32⟩
  | _ => ⟨S64x1024x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S64x1017x128x1, .f32⟩
  | 5 => ⟨S64x1017x128, .f32⟩
  | 6 => ⟨S64x1017x128, .f32⟩
  | 7 => ⟨S64x1017x128, .f32⟩
  | 8 => ⟨S_, .f32⟩
  | 9 => ⟨S64x1017, .f32⟩
  | 10 => ⟨S64x1017, .f32⟩
  | 11 => ⟨S64x1017x64, .f32⟩
  | 12 => ⟨S_, .f32⟩
  | 13 => ⟨S64x1017, .f32⟩
  | 14 => ⟨S64x1017, .f32⟩
  | 15 => ⟨S64x1017, .f32⟩
  | 16 => ⟨S64x1017, .f32⟩
  | 17 => ⟨S_, .f32⟩
  | 18 => ⟨S_, .f32⟩
  | 19 => ⟨S_, .f32⟩
  | 20 => ⟨S_, .f32⟩
  | 21 => ⟨S_, .f32⟩
  | 22 => ⟨S64x1016x128x1, .f32⟩
  | 23 => ⟨S64x1016x128, .f32⟩
  | 24 => ⟨S64x1016x128, .f32⟩
  | 25 => ⟨S64x1016x128, .f32⟩
  | 26 => ⟨S_, .f32⟩
  | 27 => ⟨S64x1016, .f32⟩
  | 28 => ⟨S64x1016, .f32⟩
  | 29 => ⟨S64x1016x64, .f32⟩
  | 30 => ⟨S_, .f32⟩
  | 31 => ⟨S64x1016, .f32⟩
  | 32 => ⟨S64x1016, .f32⟩
  | 33 => ⟨S64x1016, .f32⟩
  | 34 => ⟨S64x1016, .f32⟩
  | 35 => ⟨S_, .f32⟩
  | 36 => ⟨S_, .f32⟩
  | 37 => ⟨S_, .f32⟩
  | 38 => ⟨S_, .f32⟩
  | 39 => ⟨S_, .f32⟩
  | 40 => ⟨S1, .f32⟩
  | 41 => ⟨S1, .f32⟩
  | 42 => ⟨S1, .f32⟩
  | 43 => ⟨S1, .f32⟩
  | 44 => ⟨S1, .f32⟩
  | 45 => ⟨S1, .f32⟩
  | 46 => ⟨S1, .f32⟩
  | 47 => ⟨S1, .f32⟩
  | 48 => ⟨S8, .f32⟩
  | 49 => ⟨S_, .f32⟩
  | 50 => ⟨S_, .f32⟩
  | 51 => ⟨S_, .f32⟩
  | 52 => ⟨S_, .f32⟩
  | _ => ⟨S64x1024x128, .f32⟩

abbrev hbmTy (i : Nat) : BufTy := match i / 128 with
  | 0 => hbmTy0_0 i
  | 1 => hbmTy0_1 i
  | _ => ⟨S64x1024x128, .f32⟩

abbrev bufTy : (tb : Table) → Fin (tcTables nBuf tb) → BufTy
  | .hbm, ⟨i, _⟩ => hbmTy i
  | _, _ => ⟨S64x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_13 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_14 : Ref sig .tc := ⟨.hbm, 91, rfl⟩
abbrev main_v71 : Ref sig .tc := ⟨.hbm, 92, rfl⟩
abbrev main_cst_15 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_16 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_17 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_18 : Ref sig .tc := ⟨.hbm, 109, rfl⟩
abbrev main_v85 : Ref sig .tc := ⟨.hbm, 110, rfl⟩
abbrev main_cst_19 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_20 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_21 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_22 : Ref sig .tc := ⟨.hbm, 127, rfl⟩
abbrev main_v99 : Ref sig .tc := ⟨.hbm, 128, rfl⟩
abbrev main_cst_23 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_24 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_25 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_26 : Ref sig .tc := ⟨.hbm, 145, rfl⟩
abbrev main_v113 : Ref sig .tc := ⟨.hbm, 146, rfl⟩
abbrev main_cst_27 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_28 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_29 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_30 : Ref sig .tc := ⟨.hbm, 163, rfl⟩
abbrev main_v127 : Ref sig .tc := ⟨.hbm, 164, rfl⟩
abbrev main_cst_31 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_32 : Ref sig .tc := ⟨.hbm, 177, rfl⟩
abbrev main_v139 : Ref sig .tc := ⟨.hbm, 178, rfl⟩
abbrev main_cst_33 : Ref sig .tc := ⟨.hbm, 179, rfl⟩
abbrev main_v140 : Ref sig .tc := ⟨.hbm, 180, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S64_S64x1_0 : S64.BroadcastsInDim S64x1 (![0] : Fin 1 → Fin S64x1.rank)
  bcast_S1x1024_S64x1024_0_1 : S1x1024.BroadcastsInDim S64x1024 (![0, 1] : Fin 2 → Fin S64x1024.rank)
  bcast_S64x1_S64x1024_0_1 : S64x1.BroadcastsInDim S64x1024 (![0, 1] : Fin 2 → Fin S64x1024.rank)
  shapeCasts_S64x1024x128_S65536x128 : S64x1024x128.ShapeCasts S65536x128
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64x1024_S64x1024x1x1_0_1 : S64x1024.BroadcastsInDim S64x1024x1x1 (![0, 1] : Fin 2 → Fin S64x1024x1x1.rank)
  bcast_S64x1024x1x1_S64x1024x128x8_0_1_2_3 : S64x1024x1x1.BroadcastsInDim S64x1024x128x8 (![0, 1, 2, 3] : Fin 4 → Fin S64x1024x128x8.rank)
  slices_S64x1024x128x8_S64x1023x128x1_0_0_0_0 : S64x1024x128x8.Slices ![0, 0, 0, 0] S64x1023x128x1
  shapeCasts_S64x1023x128x1_S64x1023x128 : S64x1023x128x1.ShapeCasts S64x1023x128
  slices_S64x1024x128_S64x1023x128_0_1_0 : S64x1024x128.Slices ![0, 1, 0] S64x1023x128
  reducesTo_S64x1023x128_S64x1023_d2 : S64x1023x128.ReducesTo [2] S64x1023
  h_S_ : 0 < S_.numel
  reducesTo_S64x1023x64_S64x1023_d2 : S64x1023x64.ReducesTo [2] S64x1023
  reducesTo_S64x1023_S_d0_1 : S64x1023.ReducesTo [0, 1] S_
  slices_S64x1024x128x8_S64x1022x128x1_0_0_0_1 : S64x1024x128x8.Slices ![0, 0, 0, 1] S64x1022x128x1
  shapeCasts_S64x1022x128x1_S64x1022x128 : S64x1022x128x1.ShapeCasts S64x1022x128
  slices_S64x1024x128_S64x1022x128_0_2_0 : S64x1024x128.Slices ![0, 2, 0] S64x1022x128
  reducesTo_S64x1022x128_S64x1022_d2 : S64x1022x128.ReducesTo [2] S64x1022
  reducesTo_S64x1022x64_S64x1022_d2 : S64x1022x64.ReducesTo [2] S64x1022
  reducesTo_S64x1022_S_d0_1 : S64x1022.ReducesTo [0, 1] S_
  slices_S64x1024x128x8_S64x1021x128x1_0_0_0_2 : S64x1024x128x8.Slices ![0, 0, 0, 2] S64x1021x128x1
  shapeCasts_S64x1021x128x1_S64x1021x128 : S64x1021x128x1.ShapeCasts S64x1021x128
  slices_S64x1024x128_S64x1021x128_0_3_0 : S64x1024x128.Slices ![0, 3, 0] S64x1021x128
  reducesTo_S64x1021x128_S64x1021_d2 : S64x1021x128.ReducesTo [2] S64x1021
  reducesTo_S64x1021x64_S64x1021_d2 : S64x1021x64.ReducesTo [2] S64x1021
  reducesTo_S64x1021_S_d0_1 : S64x1021.ReducesTo [0, 1] S_
  slices_S64x1024x128x8_S64x1020x128x1_0_0_0_3 : S64x1024x128x8.Slices ![0, 0, 0, 3] S64x1020x128x1
  shapeCasts_S64x1020x128x1_S64x1020x128 : S64x1020x128x1.ShapeCasts S64x1020x128
  slices_S64x1024x128_S64x1020x128_0_4_0 : S64x1024x128.Slices ![0, 4, 0] S64x1020x128
  reducesTo_S64x1020x128_S64x1020_d2 : S64x1020x128.ReducesTo [2] S64x1020
  reducesTo_S64x1020x64_S64x1020_d2 : S64x1020x64.ReducesTo [2] S64x1020
  reducesTo_S64x1020_S_d0_1 : S64x1020.ReducesTo [0, 1] S_
  slices_S64x1024x128x8_S64x1019x128x1_0_0_0_4 : S64x1024x128x8.Slices ![0, 0, 0, 4] S64x1019x128x1
  shapeCasts_S64x1019x128x1_S64x1019x128 : S64x1019x128x1.ShapeCasts S64x1019x128
  slices_S64x1024x128_S64x1019x128_0_5_0 : S64x1024x128.Slices ![0, 5, 0] S64x1019x128
  reducesTo_S64x1019x128_S64x1019_d2 : S64x1019x128.ReducesTo [2] S64x1019
  reducesTo_S64x1019x64_S64x1019_d2 : S64x1019x64.ReducesTo [2] S64x1019
  reducesTo_S64x1019_S_d0_1 : S64x1019.ReducesTo [0, 1] S_
  slices_S64x1024x128x8_S64x1018x128x1_0_0_0_5 : S64x1024x128x8.Slices ![0, 0, 0, 5] S64x1018x128x1
  shapeCasts_S64x1018x128x1_S64x1018x128 : S64x1018x128x1.ShapeCasts S64x1018x128
  slices_S64x1024x128_S64x1018x128_0_6_0 : S64x1024x128.Slices ![0, 6, 0] S64x1018x128
  reducesTo_S64x1018x128_S64x1018_d2 : S64x1018x128.ReducesTo [2] S64x1018
  reducesTo_S64x1018x64_S64x1018_d2 : S64x1018x64.ReducesTo [2] S64x1018
  reducesTo_S64x1018_S_d0_1 : S64x1018.ReducesTo [0, 1] S_
  slices_S64x1024x128x8_S64x1017x128x1_0_0_0_6 : S64x1024x128x8.Slices ![0, 0, 0, 6] S64x1017x128x1
  shapeCasts_S64x1017x128x1_S64x1017x128 : S64x1017x128x1.ShapeCasts S64x1017x128
  slices_S64x1024x128_S64x1017x128_0_7_0 : S64x1024x128.Slices ![0, 7, 0] S64x1017x128
  reducesTo_S64x1017x128_S64x1017_d2 : S64x1017x128.ReducesTo [2] S64x1017
  reducesTo_S64x1017x64_S64x1017_d2 : S64x1017x64.ReducesTo [2] S64x1017
  reducesTo_S64x1017_S_d0_1 : S64x1017.ReducesTo [0, 1] S_
  slices_S64x1024x128x8_S64x1016x128x1_0_0_0_7 : S64x1024x128x8.Slices ![0, 0, 0, 7] S64x1016x128x1
  shapeCasts_S64x1016x128x1_S64x1016x128 : S64x1016x128x1.ShapeCasts S64x1016x128
  slices_S64x1024x128_S64x1016x128_0_8_0 : S64x1024x128.Slices ![0, 8, 0] S64x1016x128
  reducesTo_S64x1016x128_S64x1016_d2 : S64x1016x128.ReducesTo [2] S64x1016
  reducesTo_S64x1016x64_S64x1016_d2 : S64x1016x64.ReducesTo [2] S64x1016
  reducesTo_S64x1016_S_d0_1 : S64x1016.ReducesTo [0, 1] S_
  bcast_S_S1 : S_.BroadcastsInDim S1 (![] : Fin 0 → Fin S1.rank)
  concatenates_S1_S1_S1_S1_S1_S1_S1_S1_S8_d0 : Shape.Concatenates [S1, S1, S1, S1, S1, S1, S1, S1] S8 0
  reducesTo_S8_S_d0 : S8.ReducesTo [0] S_
  gather_S65536x128_S64x64x1_S64x64x128_2_0_n_n_0_2_1128_wf : GatherDims.WF S65536x128 S64x64x1 S64x64x128 [2] [0] [] [0] [] 2 ![1, 128]
  dot_S64x1023x128_S64x64x128_S64x1023x64_2_2_1_1_0_0_wf : DotDims.WF S64x1023x128 S64x64x128 S64x1023x64 [2] [2] [1] [1] [0] [0]
  dot_S64x1022x128_S64x64x128_S64x1022x64_2_2_1_1_0_0_wf : DotDims.WF S64x1022x128 S64x64x128 S64x1022x64 [2] [2] [1] [1] [0] [0]
  dot_S64x1021x128_S64x64x128_S64x1021x64_2_2_1_1_0_0_wf : DotDims.WF S64x1021x128 S64x64x128 S64x1021x64 [2] [2] [1] [1] [0] [0]
  dot_S64x1020x128_S64x64x128_S64x1020x64_2_2_1_1_0_0_wf : DotDims.WF S64x1020x128 S64x64x128 S64x1020x64 [2] [2] [1] [1] [0] [0]
  dot_S64x1019x128_S64x64x128_S64x1019x64_2_2_1_1_0_0_wf : DotDims.WF S64x1019x128 S64x64x128 S64x1019x64 [2] [2] [1] [1] [0] [0]
  dot_S64x1018x128_S64x64x128_S64x1018x64_2_2_1_1_0_0_wf : DotDims.WF S64x1018x128 S64x64x128 S64x1018x64 [2] [2] [1] [1] [0] [0]
  dot_S64x1017x128_S64x64x128_S64x1017x64_2_2_1_1_0_0_wf : DotDims.WF S64x1017x128 S64x64x128 S64x1017x64 [2] [2] [1] [1] [0] [0]
  dot_S64x1016x128_S64x64x128_S64x1016x64_2_2_1_1_0_0_wf : DotDims.WF S64x1016x128 S64x64x128 S64x1016x64 [2] [2] [1] [1] [0] [0]

variable [Facts₀]

def gather_S65536x128_S64x64x1_S64x64x128_2_0_n_n_0_2_1128 : GatherDims S65536x128 S64x64x1 S64x64x128 where
  offsetDims := [2]
  collapsedSliceDims := [0]
  operandBatchingDims := []
  startIndicesBatchingDims := []
  startIndexMap := [0]
  indexVectorDim := 2
  sliceSizes := ![1, 128]
  wf := gather_S65536x128_S64x64x1_S64x64x128_2_0_n_n_0_2_1128_wf
def dot_S64x1023x128_S64x64x128_S64x1023x64_2_2_1_1_0_0 : DotDims S64x1023x128 S64x64x128 S64x1023x64 where
  lhsContracting := [2]
  rhsContracting := [2]
  lhsNonContracting := [1]
  rhsNonContracting := [1]
  lhsBatch := [0]
  rhsBatch := [0]
  wf := dot_S64x1023x128_S64x64x128_S64x1023x64_2_2_1_1_0_0_wf
def dot_S64x1022x128_S64x64x128_S64x1022x64_2_2_1_1_0_0 : DotDims S64x1022x128 S64x64x128 S64x1022x64 where
  lhsContracting := [2]
  rhsContracting := [2]
  lhsNonContracting := [1]
  rhsNonContracting := [1]
  lhsBatch := [0]
  rhsBatch := [0]
  wf := dot_S64x1022x128_S64x64x128_S64x1022x64_2_2_1_1_0_0_wf
def dot_S64x1021x128_S64x64x128_S64x1021x64_2_2_1_1_0_0 : DotDims S64x1021x128 S64x64x128 S64x1021x64 where
  lhsContracting := [2]
  rhsContracting := [2]
  lhsNonContracting := [1]
  rhsNonContracting := [1]
  lhsBatch := [0]
  rhsBatch := [0]
  wf := dot_S64x1021x128_S64x64x128_S64x1021x64_2_2_1_1_0_0_wf
def dot_S64x1020x128_S64x64x128_S64x1020x64_2_2_1_1_0_0 : DotDims S64x1020x128 S64x64x128 S64x1020x64 where
  lhsContracting := [2]
  rhsContracting := [2]
  lhsNonContracting := [1]
  rhsNonContracting := [1]
  lhsBatch := [0]
  rhsBatch := [0]
  wf := dot_S64x1020x128_S64x64x128_S64x1020x64_2_2_1_1_0_0_wf
def dot_S64x1019x128_S64x64x128_S64x1019x64_2_2_1_1_0_0 : DotDims S64x1019x128 S64x64x128 S64x1019x64 where
  lhsContracting := [2]
  rhsContracting := [2]
  lhsNonContracting := [1]
  rhsNonContracting := [1]
  lhsBatch := [0]
  rhsBatch := [0]
  wf := dot_S64x1019x128_S64x64x128_S64x1019x64_2_2_1_1_0_0_wf
def dot_S64x1018x128_S64x64x128_S64x1018x64_2_2_1_1_0_0 : DotDims S64x1018x128 S64x64x128 S64x1018x64 where
  lhsContracting := [2]
  rhsContracting := [2]
  lhsNonContracting := [1]
  rhsNonContracting := [1]
  lhsBatch := [0]
  rhsBatch := [0]
  wf := dot_S64x1018x128_S64x64x128_S64x1018x64_2_2_1_1_0_0_wf
def dot_S64x1017x128_S64x64x128_S64x1017x64_2_2_1_1_0_0 : DotDims S64x1017x128 S64x64x128 S64x1017x64 where
  lhsContracting := [2]
  rhsContracting := [2]
  lhsNonContracting := [1]
  rhsNonContracting := [1]
  lhsBatch := [0]
  rhsBatch := [0]
  wf := dot_S64x1017x128_S64x64x128_S64x1017x64_2_2_1_1_0_0_wf
def dot_S64x1016x128_S64x64x128_S64x1016x64_2_2_1_1_0_0 : DotDims S64x1016x128 S64x64x128 S64x1016x64 where
  lhsContracting := [2]
  rhsContracting := [2]
  lhsNonContracting := [1]
  rhsNonContracting := [1]
  lhsBatch := [0]
  rhsBatch := [0]
  wf := dot_S64x1016x128_S64x64x128_S64x1016x64_2_2_1_1_0_0_wf

class Facts : Prop extends Facts₀ where

variable [Facts]
-- ==== Proof.KerStep.lean ====
/-
  One step of the kernel's body, read at an index, for ANY number of rows `n`.

  The body computes, for each of its eight steps, a [1, n, 128] slab `x` of the context block times the first `n`
  entries of the length-mask column, times a [1, n, 128] slab `y` of the difference block, summed first along the 128
  features and then along the `n` rows; the eight 1 × 1 results are joined along axis 1.  On the extended reals a lane
  sum is the plain finite sum, a shape cast re-reads the same row-major position, a column broadcast repeats its
  entry along the row and a unit-stride slice from offset 0 keeps the coordinates: so the step's score is
  `Σ_t Σ_e (x[0,t,e] · mask[t,0]) · y[0,t,e]`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KerStep

open Idealize.ShloMosaic Idealize.ShloMosaic.ValueIdx

/-- An `[a]` array cast to the column `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index inserted by a reduction of a matrix along its columns (axis 1): row `t`, column `e`. -/
private theorem lift_axis1 {n m : ℕ} (h : (⟨2, ![n, m]⟩ : Shape).Reduces [1] ⟨1, ![n]⟩) (t : Fin n) (e : Fin m) :
    h.lift (ix1 t) e = ix2 t e := by
  funext c
  apply Fin.ext
  match c with
  | ⟨0, _⟩ => rfl
  | ⟨1, _⟩ => rfl

/-- The index inserted by a reduction of a matrix along its rows (axis 0): row `t`, column `u`. -/
private theorem lift_axis0 {n m : ℕ} (h : (⟨2, ![n, m]⟩ : Shape).Reduces [0] ⟨1, ![m]⟩) (u : Fin m) (t : Fin n) :
    h.lift (ix1 u) t = ix2 t u := by
  funext c
  apply Fin.ext
  match c with
  | ⟨0, _⟩ => rfl
  | ⟨1, _⟩ => rfl

/-- A one-bit word widened to 32 bits and read as a signed integer is the bit. -/
private theorem bit_toInt (b : BitVec 1) : (((b.setWidth 32).toInt : ℝ) : EReal) = ((b.toNat : ℝ) : EReal) := by
  rcases BitVec.eq_zero_or_eq_one b with rfl | rfl
  · simp
  · simp

/-- The mask column: `1` where the row number is below the length word (signed), `0` elsewhere, as a number. -/
theorem maskCol_apply (v1 : BitVec 32) (hi : (⟨2, ![1024, 1]⟩ : Shape).Iotas .tc 32 [0]) (hlt : 1 < 32) (t : Fin 1024) (u : Fin 1) :
    (sitofp .f32 (extui 32 (cmpi .slt (iota .tc ⟨2, ![1024, 1]⟩ 32 [0] hi) (broadcast ⟨2, ![1024, 1]⟩ v1)) hlt)
        : FVec Ideal ⟨2, ![1024, 1]⟩ .f32) (ix2 t u)
      = (((IntOp.cmpi .slt (BitVec.ofNat 32 t.val) v1).toNat : ℝ) : EReal) := by
  have hio : iota .tc ⟨2, ![1024, 1]⟩ 32 [0] hi (ix2 t u) = BitVec.ofNat 32 t.val :=
    iota_single_apply .tc _ 32 0 hi (ix2 t u)
  show (((((IntOp.cmpi .slt (iota .tc ⟨2, ![1024, 1]⟩ 32 [0] hi (ix2 t u)) v1).setWidth 32).toInt : ℝ)) : EReal) = _
  rw [hio]
  exact bit_toInt _

/-- One step's score, read at its one index. -/
theorem stepScore_apply {n : ℕ} (hn : n ≤ 1024) (mask : FVec Ideal ⟨2, ![1024, 1]⟩ .f32) (x y : FVec Ideal ⟨3, ![1, n, 128]⟩ .f32)
    (h1 : (⟨3, ![1, n, 128]⟩ : Shape).ShapeCasts ⟨2, ![n, 128]⟩)
    (hs : (⟨2, ![1024, 1]⟩ : Shape).Slices ![0, 0] ⟨2, ![n, 1]⟩)
    (hb : (⟨2, ![n, 1]⟩ : Shape).Broadcasts ⟨2, ![n, 128]⟩)
    (hr : (⟨2, ![n, 128]⟩ : Shape).Reduces [1] ⟨1, ![n]⟩)
    (hc : (⟨1, ![n]⟩ : Shape).ShapeCasts ⟨2, ![n, 1]⟩)
    (hr2 : (⟨2, ![n, 1]⟩ : Shape).Reduces [0] ⟨1, ![1]⟩)
    (hc2 : (⟨1, ![1]⟩ : Shape).ShapeCasts ⟨2, ![1, 1]⟩)
    (hφ : FKind.Formats .f32) (hacc : (0x00000000#32 : BitVec 32) = FKind.add.neutral .f32 hφ) (u v : Fin 1) :
    shapeCast ⟨2, ![1, 1]⟩ (multiReduction .add [0] ⟨1, ![1]⟩ (shapeCast ⟨2, ![n, 1]⟩ (multiReduction .add [1] ⟨1, ![n]⟩
        (mulf (mulf (shapeCast ⟨2, ![n, 128]⟩ x h1) (broadcastTo ⟨2, ![n, 128]⟩ (extractStridedSlice ⟨2, ![n, 1]⟩ ![0, 0] mask hs) hb))
          (shapeCast ⟨2, ![n, 128]⟩ y h1)) 0x00000000#32 hr hφ hacc) hc) 0x00000000#32 hr2 hφ hacc) hc2 (ix2 u v)
      = ∑ t : Fin n, ∑ e : Fin 128, (x (ix3 (0 : Fin 1) t e) * mask (ix2 (⟨t.val, by omega⟩ : Fin 1024) (0 : Fin 1))) * y (ix3 (0 : Fin 1) t e) := by
  refine (shapeCast_a_1a_apply _ hc2 u v).trans ?_
  refine (Ideal.multiReduction_add_single _ _ hr2 hφ hacc (ix1 v)).trans ?_
  refine Finset.sum_congr rfl fun (t : Fin n) _ => ?_
  rw [lift_axis0 hr2 v t]
  refine (shapeCast_a_a1_apply _ hc t v).trans ?_
  refine (Ideal.multiReduction_add_single _ _ hr hφ hacc (ix1 t)).trans ?_
  refine Finset.sum_congr rfl fun (e : Fin 128) _ => ?_
  rw [lift_axis1 hr t e, mulf_apply, mulf_apply, shapeCast_1ab_ab_apply, shapeCast_1ab_ab_apply, broadcastTo_a1_ab_apply,
    slice2_axis0_apply 0 mask hs t (0 : Fin 1) (⟨t.val, by omega⟩ : Fin 1024) (Nat.zero_add _).symm]

/-- Eight 1 × 1 pieces joined along axis 1, then given a leading unit axis: entry (0, 0, k) is piece k's one entry. -/
theorem joined8_apply {α : Type} (p0 p1 p2 p3 p4 p5 p6 p7 : (⟨2, ![1, 1]⟩ : Shape).Idx → α)
    (hcat : Shape.Concatenates (([⟨⟨2, ![1, 1]⟩, p0⟩, ⟨⟨2, ![1, 1]⟩, p1⟩, ⟨⟨2, ![1, 1]⟩, p2⟩, ⟨⟨2, ![1, 1]⟩, p3⟩, ⟨⟨2, ![1, 1]⟩, p4⟩, ⟨⟨2, ![1, 1]⟩, p5⟩,
        ⟨⟨2, ![1, 1]⟩, p6⟩, ⟨⟨2, ![1, 1]⟩, p7⟩] : List ((s : Shape) × (s.Idx → α))).map (·.1)) ⟨2, ![1, 8]⟩ 1)
    (hcast : (⟨2, ![1, 8]⟩ : Shape).ShapeCasts ⟨3, ![1, 1, 8]⟩) (k : Fin 8) :
    shapeCast ⟨3, ![1, 1, 8]⟩ (concatenate ⟨2, ![1, 8]⟩ 1 [⟨⟨2, ![1, 1]⟩, p0⟩, ⟨⟨2, ![1, 1]⟩, p1⟩, ⟨⟨2, ![1, 1]⟩, p2⟩, ⟨⟨2, ![1, 1]⟩, p3⟩,
        ⟨⟨2, ![1, 1]⟩, p4⟩, ⟨⟨2, ![1, 1]⟩, p5⟩, ⟨⟨2, ![1, 1]⟩, p6⟩, ⟨⟨2, ![1, 1]⟩, p7⟩] hcat) hcast (ix3 (0 : Fin 1) (0 : Fin 1) k)
      = (![p0, p1, p2, p3, p4, p5, p6, p7] k) (ix2 (0 : Fin 1) (0 : Fin 1)) := by
  refine (shapeCast_ab_1ab_apply _ hcast (0 : Fin 1) (0 : Fin 1) k).trans ?_
  match k with
  | ⟨0, _⟩ =>
    exact concatenate_apply_piece (t := ⟨2, ![1, 8]⟩) (1 : Fin 2) _ hcat (ix2 (0 : Fin 1) (⟨0, by omega⟩ : Fin 8)) 0 (show 0 < 8 by omega)
      ⟨2, ![1, 1]⟩ p0 rfl rfl 0 rfl (ix2 (0 : Fin 1) (0 : Fin 1))
      (fun b hb => match b, hb with
        | ⟨0, _⟩, _ => rfl
        | ⟨1, _⟩, hb => absurd rfl hb) rfl
  | ⟨1, _⟩ =>
    exact concatenate_apply_piece (t := ⟨2, ![1, 8]⟩) (1 : Fin 2) _ hcat (ix2 (0 : Fin 1) (⟨1, by omega⟩ : Fin 8)) 1 (show 1 < 8 by omega)
      ⟨2, ![1, 1]⟩ p1 rfl rfl 1 rfl (ix2 (0 : Fin 1) (0 : Fin 1))
      (fun b hb => match b, hb with
        | ⟨0, _⟩, _ => rfl
        | ⟨1, _⟩, hb => absurd rfl hb) rfl
  | ⟨2, _⟩ =>
    exact concatenate_apply_piece (t := ⟨2, ![1, 8]⟩) (1 : Fin 2) _ hcat (ix2 (0 : Fin 1) (⟨2, by omega⟩ : Fin 8)) 2 (show 2 < 8 by omega)
      ⟨2, ![1, 1]⟩ p2 rfl rfl 2 rfl (ix2 (0 : Fin 1) (0 : Fin 1))
      (fun b hb => match b, hb with
        | ⟨0, _⟩, _ => rfl
        | ⟨1, _⟩, hb => absurd rfl hb) rfl
  | ⟨3, _⟩ =>
    exact concatenate_apply_piece (t := ⟨2, ![1, 8]⟩) (1 : Fin 2) _ hcat (ix2 (0 : Fin 1) (⟨3, by omega⟩ : Fin 8)) 3 (show 3 < 8 by omega)
      ⟨2, ![1, 1]⟩ p3 rfl rfl 3 rfl (ix2 (0 : Fin 1) (0 : Fin 1))
      (fun b hb => match b, hb with
        | ⟨0, _⟩, _ => rfl
        | ⟨1, _⟩, hb => absurd rfl hb) rfl
  | ⟨4, _⟩ =>
    exact concatenate_apply_piece (t := ⟨2, ![1, 8]⟩) (1 : Fin 2) _ hcat (ix2 (0 : Fin 1) (⟨4, by omega⟩ : Fin 8)) 4 (show 4 < 8 by omega)
      ⟨2, ![1, 1]⟩ p4 rfl rfl 4 rfl (ix2 (0 : Fin 1) (0 : Fin 1))
      (fun b hb => match b, hb with
        | ⟨0, _⟩, _ => rfl
        | ⟨1, _⟩, hb => absurd rfl hb) rfl
  | ⟨5, _⟩ =>
    exact concatenate_apply_piece (t := ⟨2, ![1, 8]⟩) (1 : Fin 2) _ hcat (ix2 (0 : Fin 1) (⟨5, by omega⟩ : Fin 8)) 5 (show 5 < 8 by omega)
      ⟨2, ![1, 1]⟩ p5 rfl rfl 5 rfl (ix2 (0 : Fin 1) (0 : Fin 1))
      (fun b hb => match b, hb with
        | ⟨0, _⟩, _ => rfl
        | ⟨1, _⟩, hb => absurd rfl hb) rfl
  | ⟨6, _⟩ =>
    exact concatenate_apply_piece (t := ⟨2, ![1, 8]⟩) (1 : Fin 2) _ hcat (ix2 (0 : Fin 1) (⟨6, by omega⟩ : Fin 8)) 6 (show 6 < 8 by omega)
      ⟨2, ![1, 1]⟩ p6 rfl rfl 6 rfl (ix2 (0 : Fin 1) (0 : Fin 1))
      (fun b hb => match b, hb with
        | ⟨0, _⟩, _ => rfl
        | ⟨1, _⟩, hb => absurd rfl hb) rfl
  | ⟨7, _⟩ =>
    exact concatenate_apply_piece (t := ⟨2, ![1, 8]⟩) (1 : Fin 2) _ hcat (ix2 (0 : Fin 1) (⟨7, by omega⟩ : Fin 8)) 7 (show 7 < 8 by omega)
      ⟨2, ![1, 1]⟩ p7 rfl rfl 7 rfl (ix2 (0 : Fin 1) (0 : Fin 1))
      (fun b hb => match b, hb with
        | ⟨0, _⟩, _ => rfl
        | ⟨1, _⟩, hb => absurd rfl hb) rfl

end Cert.KerStep

end
-- ==== Proof.CpcSpec.lean ====
/-
  The contrastive-predictive-coding loss, as ONE function of the argument arrays on the extended reals.

  Inputs: base embeddings `base[b, t, e]` (64 × 1024 × 128), mapped contexts `ctx[b, t, e, k]` (… × 8), sequence lengths
  `lens[b]` and the gathered negatives `ns[b, n, e]` (64 × 64 × 128: rows of `base`, whichever the indices pick).
  The length mask is `msk b t = 1` if `t < lens b` (signed) and `0` otherwise; the masked context at step `k` is
  `ce k b t e = ctx[b, t, e, k] · msk b t`.  Step `k` (0-based) pairs row `t` of the context with row `t + k + 1` of the
  base, for the `n = 1023 - k` rows `t` that have such a partner.

  Two readings of the step's score:
  * the LOG-RATIO reading: per (b, t), `log (exp (Σ_e ce · base) / exp (Σ_n Σ_e ce · ns))`, summed over all (b, t);
  * the DIFFERENCE reading: per b, `Σ_t Σ_e ce · (base − Σ_n ns)`, summed over b.
  When every entry is a real number they agree: `log (exp A / exp B) = A − B` for reals, and the difference distributes
  through the sums.  At an infinite entry neither law holds, so finiteness is a hypothesis of the bridge.
-/
import Idealize.ShloMosaic.PureOps.Ideal
import Idealize.ShloMosaic.PureOps.Ideal.Laws
import Idealize.ShloMosaic.Lib.ValueIdx

noncomputable section

namespace Cert.CpcSpec

open Idealize.ShloMosaic Idealize.ShloMosaic.ValueIdx

abbrev Base := (⟨3, ![64, 1024, 128]⟩ : Shape).Idx → EReal
abbrev Ctx := (⟨4, ![64, 1024, 128, 8]⟩ : Shape).Idx → EReal
abbrev Lens := (⟨1, ![64]⟩ : Shape).Idx → BitVec 32
abbrev Negs := (⟨3, ![64, 64, 128]⟩ : Shape).Idx → EReal

/-- The length mask's bit: `t < lens b`, compared as signed 32-bit words. -/
def mbit (lens : Lens) (b : Fin 64) (t : Fin 1024) : BitVec 1 :=
  IntOp.cmpi .slt (BitVec.ofNat 32 t.val) (lens (ix1 b))

/-- The length mask as a number: 1 inside the sequence, 0 past its end. -/
def msk (lens : Lens) (b : Fin 64) (t : Fin 1024) : EReal := (((mbit lens b t).toNat : ℝ) : EReal)

/-- The masked context of step `k`. -/
def ce (ctx : Ctx) (lens : Lens) (k : Fin 8) (b : Fin 64) (t : Fin 1024) (e : Fin 128) : EReal :=
  ctx (ix4 b t e k) * msk lens b t

/-- The sum of a batch row's negatives, feature by feature. -/
def nsum (ns : Negs) (b : Fin 64) (e : Fin 128) : EReal := ∑ n' : Fin 64, ns (ix3 b n' e)

/-- Row `t` of the `n` rows of step `k`, as a row of the context. -/
abbrev lo {n : ℕ} (k : Fin 8) (h : n + k.val + 1 = 1024) (t : Fin n) : Fin 1024 := ⟨t.val, by omega⟩
/-- Its partner, `k + 1` rows later, as a row of the base. -/
abbrev hi {n : ℕ} (k : Fin 8) (h : n + k.val + 1 = 1024) (t : Fin n) : Fin 1024 := ⟨t.val + k.val + 1, by omega⟩

/-- DIFFERENCE reading, one batch row: `Σ_t Σ_e ce · (base − Σ_n ns)`. -/
def rowScore (n : ℕ) (k : Fin 8) (h : n + k.val + 1 = 1024) (base : Base) (ctx : Ctx) (lens : Lens) (ns : Negs) (b : Fin 64) : EReal :=
  ∑ t : Fin n, ∑ e : Fin 128, ce ctx lens k b (lo k h t) e * (base (ix3 b (hi k h t) e) - nsum ns b e)

/-- DIFFERENCE reading, the step: the row scores summed over the batch. -/
def diffStep (n : ℕ) (k : Fin 8) (h : n + k.val + 1 = 1024) (base : Base) (ctx : Ctx) (lens : Lens) (ns : Negs) : EReal :=
  ∑ b : Fin 64, rowScore n k h base ctx lens ns b

/-- LOG-RATIO reading, one (b, t): `log (exp (Σ_e ce · base) / exp (Σ_n Σ_e ce · ns))`. -/
def logRatio (n : ℕ) (k : Fin 8) (h : n + k.val + 1 = 1024) (base : Base) (ctx : Ctx) (lens : Lens) (ns : Negs) (b : Fin 64) (t : Fin n) : EReal :=
  Ideal.log (Ideal.div
    (Ideal.exp (∑ e : Fin 128, ce ctx lens k b (lo k h t) e * base (ix3 b (hi k h t) e)))
    (Ideal.exp (∑ n' : Fin 64, ∑ e : Fin 128, ce ctx lens k b (lo k h t) e * ns (ix3 b n' e))))

/-- LOG-RATIO reading, the step: summed over every (b, t) of the 64 × n grid. -/
def ratioStep (n : ℕ) (k : Fin 8) (h : n + k.val + 1 = 1024) (base : Base) (ctx : Ctx) (lens : Lens) (ns : Negs) : EReal :=
  ∑ j : (⟨2, ![64, n]⟩ : Shape).Idx, logRatio n k h base ctx lens ns (j 0) (j 1)

/-- Every entry of an array is a real number. -/
def AllReal {S : Shape} (x : S.Idx → EReal) : Prop := ∀ i, ∃ r : ℝ, x i = (r : EReal)

/-- The coercion of a finite sum of reals is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For reals, `log (exp A / exp B) = A − B`. -/
theorem log_exp_div_exp (A B : ℝ) : Ideal.log (Ideal.div (Ideal.exp (A : EReal)) (Ideal.exp (B : EReal))) = ((A - B : ℝ) : EReal) := by
  rw [Ideal.exp_coe, Ideal.exp_coe, Ideal.div_coe (Real.exp_pos B).ne', ← EReal.coe_mul, Ideal.log_coe]
  have hq : Real.exp A * (1 / Real.exp B) = Real.exp (A - B) := by
    rw [Real.exp_sub, mul_one_div]
  rw [hq, if_neg (not_le.mpr (Real.exp_pos _)), Real.log_exp]

/-- The mask is a real number. -/
theorem msk_real (lens : Lens) (b : Fin 64) (t : Fin 1024) : ∃ r : ℝ, msk lens b t = (r : EReal) := ⟨_, rfl⟩

/-- With real entries the log-ratio of one (b, t) is the difference reading's inner sum. -/
theorem logRatio_eq (n : ℕ) (k : Fin 8) (h : n + k.val + 1 = 1024) (base : Base) (ctx : Ctx) (lens : Lens) (ns : Negs)
    (hb : AllReal base) (hc : AllReal ctx) (hn : AllReal ns) (b : Fin 64) (t : Fin n) :
    logRatio n k h base ctx lens ns b t
      = ∑ e : Fin 128, ce ctx lens k b (lo k h t) e * (base (ix3 b (hi k h t) e) - nsum ns b e) := by
  choose fb hfb using hb
  choose fc hfc using hc
  choose fn hfn using hn
  -- the masked context, the partner row and the negatives as real numbers
  set c : Fin 128 → ℝ := fun e => fc (ix4 b (lo k h t) e k) * ((mbit lens b (lo k h t)).toNat : ℝ) with hcdef
  have hce : ∀ e, ce ctx lens k b (lo k h t) e = ((c e : ℝ) : EReal) := by
    intro e
    rw [ce, hfc, msk, ← EReal.coe_mul]
  have hbase : ∀ e, base (ix3 b (hi k h t) e) = ((fb (ix3 b (hi k h t) e) : ℝ) : EReal) := fun e => hfb _
  have hns : ∀ n' e, ns (ix3 b n' e) = ((fn (ix3 b n' e) : ℝ) : EReal) := fun n' e => hfn _
  have hnsum : ∀ e, nsum ns b e = ((∑ n' : Fin 64, fn (ix3 b n' e) : ℝ) : EReal) := by
    intro e
    rw [nsum, coe_sum]
    exact Finset.sum_congr rfl (fun n' _ => hns n' e)
  have hA : (∑ e : Fin 128, ce ctx lens k b (lo k h t) e * base (ix3 b (hi k h t) e))
      = ((∑ e : Fin 128, c e * fb (ix3 b (hi k h t) e) : ℝ) : EReal) := by
    rw [coe_sum]
    refine Finset.sum_congr rfl (fun e _ => ?_)
    rw [hce, hbase, ← EReal.coe_mul]
  have hB : (∑ n' : Fin 64, ∑ e : Fin 128, ce ctx lens k b (lo k h t) e * ns (ix3 b n' e))
      = ((∑ n' : Fin 64, ∑ e : Fin 128, c e * fn (ix3 b n' e) : ℝ) : EReal) := by
    rw [coe_sum]
    refine Finset.sum_congr rfl (fun n' _ => ?_)
    rw [coe_sum]
    refine Finset.sum_congr rfl (fun e _ => ?_)
    rw [hce, hns, ← EReal.coe_mul]
  have hR : (∑ e : Fin 128, ce ctx lens k b (lo k h t) e * (base (ix3 b (hi k h t) e) - nsum ns b e))
      = ((∑ e : Fin 128, c e * (fb (ix3 b (hi k h t) e) - ∑ n' : Fin 64, fn (ix3 b n' e)) : ℝ) : EReal) := by
    rw [coe_sum]
    refine Finset.sum_congr rfl (fun e _ => ?_)
    rw [hce, hbase, hnsum, ← EReal.coe_sub, ← EReal.coe_mul]
  rw [logRatio, hA, hB, log_exp_div_exp, hR]
  congr 1
  rw [Finset.sum_comm (s := (Finset.univ : Finset (Fin 64))), ← Finset.sum_sub_distrib]
  refine Finset.sum_congr rfl (fun e _ => ?_)
  rw [mul_sub, Finset.mul_sum]

/-- THE BRIDGE: with real entries the two readings of a step agree. -/
theorem ratioStep_eq_diffStep (n : ℕ) (k : Fin 8) (h : n + k.val + 1 = 1024) (base : Base) (ctx : Ctx) (lens : Lens) (ns : Negs)
    (hb : AllReal base) (hc : AllReal ctx) (hn : AllReal ns) :
    ratioStep n k h base ctx lens ns = diffStep n k h base ctx lens ns := by
  rw [ratioStep, diffStep, sum_idx2]
  refine Finset.sum_congr rfl (fun b _ => ?_)
  rw [rowScore]
  refine Finset.sum_congr rfl (fun t _ => ?_)
  exact logRatio_eq n k h base ctx lens ns hb hc hn b t

end Cert.CpcSpec

end
-- ==== Proof.KerPoint.lean ====
/-
  What one grid point of the kernel leaves in its output block, as a function of the point's two input blocks and of the
  length word it reads from the table.

  The body stores ONE block [1, 1, 8]; entry (0, 0, k) is step k's score: the slab of the context block in rows 0 … n−1
  and columns 128k … 128k+127 (n = 1023 − k), times the length mask of the row, times the slab of the difference block
  in rows k+1 … k+n, summed over features and then rows.  Each step is the one composite of casts, a slice, a broadcast,
  two products and two lane sums that is read at an index once for every n; a slab loaded through a rectangle reads the
  block at the rectangle's offset plus the coordinate.
-/
import proofs.«400458_j63127429316797_2_alg».proof.Proof.Gen.KernelIdeal.Frame
import proofs.«400458_j63127429316797_2_alg».proof.Proof.KerStep
import proofs.«400458_j63127429316797_2_alg».proof.Proof.CpcSpec
import Idealize.ShloMosaic.Lib.Pipeline.Value
import Idealize.ShloMosaic.PureOps.Ideal
import Idealize.ShloMosaic.PureOps.Ideal.Laws

set_option maxRecDepth 16384
noncomputable section
namespace Cert.KerPoint
open Idealize.ShloMosaic Idealize.ShloMosaic.TcCoe Idealize.ShloMosaic.Tactic Idealize.ShloMosaic.ValueIdx
open Idealize.SL Idealize.SL.Sem
open Cert.KernelIdeal Cert.KernelIdeal.Gen Cert.CpcSpec

theorem hz3 : (![0, 0, 0] : Fin S1x1x8.rank → ℕ) = fun _ => 0 := by
  funext a; match a with | ⟨0, _⟩ => rfl | ⟨1, _⟩ => rfl | ⟨2, _⟩ => rfl

/-- The number a length word gives the mask at row `t`. -/
abbrev maskAt (w : BitVec 32) (t : Fin 1024) : EReal := (((IntOp.cmpi .slt (BitVec.ofNat 32 t.val) w).toNat : ℝ) : EReal)

/-- Step `k` of one grid point, over the point's two input blocks and its length word. -/
def blockScore (n : ℕ) (k : Fin 8) (h : n + k.val + 1 = 1024) (X0 : (⟨3, ![1, 1024, 1024]⟩ : Shape).Idx → EReal)
    (X1 : (⟨3, ![1, 1024, 128]⟩ : Shape).Idx → EReal) (w : BitVec 32) : EReal :=
  ∑ t : Fin n, ∑ e : Fin 128, (X0 (ix3 (0 : Fin 1) (lo k h t) (⟨128 * k.val + e.val, by omega⟩ : Fin 1024)) * maskAt w (lo k h t))
    * X1 (ix3 (0 : Fin 1) (hi k h t) e)

/-- A slab of a block: rows from `r0`, columns from `c0`, read at (0, t, e). -/
theorem slab_apply {R C n : ℕ} (X : (⟨3, ![1, R, C]⟩ : Shape).Idx → EReal) (r0 c0 : ℕ)
    (inb : ∀ a, (![0, r0, c0] : Fin 3 → ℕ) a + (![1, n, 128] : Fin 3 → ℕ) a ≤ (⟨3, ![1, R, C]⟩ : Shape).size a)
    (t : Fin n) (e : Fin 128) (hr : r0 + t.val < R) (hc : c0 + e.val < C) :
    View.ld (Val := Elt Ideal) (e' := .f32) X (Rect.unit ![0, r0, c0] ![1, n, 128] inb) (ix3 (0 : Fin 1) t e)
      = X (ix3 (0 : Fin 1) ⟨r0 + t.val, hr⟩ ⟨c0 + e.val, hc⟩) := by
  show X _ = X _
  refine congrArg X (funext fun a => Fin.ext ?_)
  match a with
  | ⟨0, _⟩ => rfl
  | ⟨1, _⟩ => show r0 + 1 * t.val = r0 + t.val; omega
  | ⟨2, _⟩ => show c0 + 1 * e.val = c0 + e.val; omega

/-- One step's composite over slabs of the two blocks and the mask column of a length word is its block score. -/
theorem step_of_slabs (n : ℕ) (k : Fin 8) (h : n + k.val + 1 = 1024) (X0 : (⟨3, ![1, 1024, 1024]⟩ : Shape).Idx → EReal)
    (X1 : (⟨3, ![1, 1024, 128]⟩ : Shape).Idx → EReal) (w : BitVec 32)
    (inb0 : ∀ a, (![0, 0, 128 * k.val] : Fin 3 → ℕ) a + (![1, n, 128] : Fin 3 → ℕ) a ≤ (⟨3, ![1, 1024, 1024]⟩ : Shape).size a)
    (inb1 : ∀ a, (![0, k.val + 1, 0] : Fin 3 → ℕ) a + (![1, n, 128] : Fin 3 → ℕ) a ≤ (⟨3, ![1, 1024, 128]⟩ : Shape).size a)
    (hi' : (⟨2, ![1024, 1]⟩ : Shape).Iotas .tc 32 [0]) (hlt : 1 < 32) :
    (∑ t : Fin n, ∑ e : Fin 128,
        (View.ld (Val := Elt Ideal) (e' := .f32) X0 (Rect.unit ![0, 0, 128 * k.val] ![1, n, 128] inb0) (ix3 (0 : Fin 1) t e)
          * (sitofp .f32 (extui 32 (cmpi .slt (iota .tc ⟨2, ![1024, 1]⟩ 32 [0] hi') (broadcast ⟨2, ![1024, 1]⟩ w)) hlt)
              : FVec Ideal ⟨2, ![1024, 1]⟩ .f32) (ix2 (⟨t.val, by omega⟩ : Fin 1024) (0 : Fin 1)))
          * View.ld (Val := Elt Ideal) (e' := .f32) X1 (Rect.unit ![0, k.val + 1, 0] ![1, n, 128] inb1) (ix3 (0 : Fin 1) t e))
      = blockScore n k h X0 X1 w := by
  unfold blockScore
  refine Finset.sum_congr rfl fun t _ => Finset.sum_congr rfl fun e _ => ?_
  rw [slab_apply X0 0 (128 * k.val) inb0 t e (by omega) (by omega), slab_apply X1 (k.val + 1) 0 inb1 t e (by omega) (by omega),
    Cert.KerStep.maskCol_apply]
  have e0 : (ix3 (0 : Fin 1) (⟨0 + t.val, by omega⟩ : Fin 1024) (⟨128 * k.val + e.val, by omega⟩ : Fin 1024) : (⟨3, ![1, 1024, 1024]⟩ : Shape).Idx)
      = ix3 (0 : Fin 1) (lo k h t) (⟨128 * k.val + e.val, by omega⟩ : Fin 1024) := by
    congr 1; exact Fin.ext (by show 0 + t.val = t.val; omega)
  have e1 : (ix3 (0 : Fin 1) (⟨k.val + 1 + t.val, by omega⟩ : Fin 1024) (⟨0 + e.val, by omega⟩ : Fin 128) : (⟨3, ![1, 1024, 128]⟩ : Shape).Idx)
      = ix3 (0 : Fin 1) (hi k h t) e := by
    congr 1
    · exact Fin.ext (by show k.val + 1 + t.val = t.val + k.val + 1; omega)
    · exact Fin.ext (by show 0 + e.val = e.val; omega)
  rw [e0, e1]

/-- The eight block scores of one grid point. -/
def blockScores (X0 : (⟨3, ![1, 1024, 1024]⟩ : Shape).Idx → EReal) (X1 : (⟨3, ![1, 1024, 128]⟩ : Shape).Idx → EReal) (w : BitVec 32) : Fin 8 → EReal :=
  ![blockScore 1023 0 (by decide) X0 X1 w, blockScore 1022 1 (by decide) X0 X1 w, blockScore 1021 2 (by decide) X0 X1 w,
    blockScore 1020 3 (by decide) X0 X1 w, blockScore 1019 4 (by decide) X0 X1 w, blockScore 1018 5 (by decide) X0 X1 w,
    blockScore 1017 6 (by decide) X0 X1 w, blockScore 1016 7 (by decide) X0 X1 w]

/-- The table's entry at the grid coordinate: the length word of the point's batch row. -/
abbrev tblWord (c : Dev nD) (i : grid0.Coords) (xt0 : TbBuf0 (F := Ideal) c tbM0_0) : BitVec 32 :=
  (xt0 : S64.Idx → BitVec 32) (ix1 (⟨(i 0).val, (i 0).isLt⟩ : Fin 64))

/-- What a grid point leaves in the output block: entry (0, 0, k) is step k's block score over the point's two input
    blocks and its length word. -/
theorem block_apply (c : Dev nD) (i : grid0.Coords) (arg2 : Memref sig .tc .vmem S1x1024x1024 .f32) (harg2 : arg2.IsWhole) (arg3 : Memref sig .tc .vmem S1x1024x128 .f32) (harg3 : arg3.IsWhole) (arg4 : Memref sig .tc .vmem S1x1x8 .f32) (harg4 : arg4.IsWhole)
    (x0 : Vec Ideal S1x1024x1024 .f32) (x1 : Vec Ideal S1x1024x128 .f32) (xt0 : TbBuf0 (F := Ideal) c tbM0_0) (k : Fin 8) :
    out0_A_2 c i arg2 harg2 arg3 harg3 arg4 harg4 x0 x1 xt0 (ix3 (0 : Fin 1) (0 : Fin 1) k) = blockScores x0 x1 (tblWord c i xt0) k := by
  unfold out0_A_2
  rw [View.read_writes_eq_canon _ _ _ (cover0_A_2 c i arg2 harg2 arg3 harg3 arg4 harg4 x0 x1 xt0)]
  unfold kernelRun0_A
  dsimp only
  sl_unfold_words
  rw [View.canon_unit_zero hz3]
  simp only [View.readAt_eq_ld, harg2.read_unread, harg3.read_unread]
  generalize hW : View.ld (View.read (Elt Ideal) (View.whole main_arg2) xt0) _ _ = W
  have hW' : W = tblWord c i xt0 := by
    rw [← hW]
    show (xt0 : S64.Idx → BitVec 32) _ = (xt0 : S64.Idx → BitVec 32) _
    refine congrArg (xt0 : S64.Idx → BitVec 32) (funext fun a => Fin.ext ?_)
    match a with
    | ⟨0, _⟩ =>
      have := congrFun (k0_off1_eq i) 0
      show k0_off1 i 0 + 1 * 0 = (i 0).val
      rw [this]; rfl
  rw [← hW']
  unfold k0_pay1
  dsimp only
  rw [Cert.KerStep.joined8_apply]
  unfold blockScores
  fin_cases k
  · exact (Cert.KerStep.stepScore_apply (n := 1023) (by decide) _ _ _ _ _ _ _ _ _ _ _ _ 0 0).trans (step_of_slabs 1023 0 (by decide) x0 x1 W _ _ _ _)
  · exact (Cert.KerStep.stepScore_apply (n := 1022) (by decide) _ _ _ _ _ _ _ _ _ _ _ _ 0 0).trans (step_of_slabs 1022 1 (by decide) x0 x1 W _ _ _ _)
  · exact (Cert.KerStep.stepScore_apply (n := 1021) (by decide) _ _ _ _ _ _ _ _ _ _ _ _ 0 0).trans (step_of_slabs 1021 2 (by decide) x0 x1 W _ _ _ _)
  · exact (Cert.KerStep.stepScore_apply (n := 1020) (by decide) _ _ _ _ _ _ _ _ _ _ _ _ 0 0).trans (step_of_slabs 1020 3 (by decide) x0 x1 W _ _ _ _)
  · exact (Cert.KerStep.stepScore_apply (n := 1019) (by decide) _ _ _ _ _ _ _ _ _ _ _ _ 0 0).trans (step_of_slabs 1019 4 (by decide) x0 x1 W _ _ _ _)
  · exact (Cert.KerStep.stepScore_apply (n := 1018) (by decide) _ _ _ _ _ _ _ _ _ _ _ _ 0 0).trans (step_of_slabs 1018 5 (by decide) x0 x1 W _ _ _ _)
  · exact (Cert.KerStep.stepScore_apply (n := 1017) (by decide) _ _ _ _ _ _ _ _ _ _ _ _ 0 0).trans (step_of_slabs 1017 6 (by decide) x0 x1 W _ _ _ _)
  · exact (Cert.KerStep.stepScore_apply (n := 1016) (by decide) _ _ _ _ _ _ _ _ _ _ _ _ 0 0).trans (step_of_slabs 1016 7 (by decide) x0 x1 W _ _ _ _)

end Cert.KerPoint
end
-- ==== Proof.KerHost.lean ====
/-
  What the kernel's region finds in its input arrays, index by index, as functions of the program's arguments.

  Before the region the program transposes the last two axes of the context and flattens them k-major, so that column
  `128·k + e` of row (b, t) of the first input array is the context at (b, t, e, k); it gathers the negatives, sums them
  over the negatives' axis and subtracts that sum from every row of the base, so that the second input array at
  (b, t, e) is `base[b, t, e] − Σ_n negs[b, n, e]`; and it writes the table of the eight counts.  The gathered negatives
  are the same term the reference computes (same operations on the same two arguments).
-/
import proofs.«400458_j63127429316797_2_alg».proof.Proof.Gen.KernelIdeal.Frame
import proofs.«400458_j63127429316797_2_alg».proof.Proof.Gen.ReferenceIdeal.Read
import proofs.«400458_j63127429316797_2_alg».proof.Proof.CpcSpec
import Idealize.ShloMosaic.Lib.Pipeline.Value
import Idealize.ShloMosaic.Lib.ValueLayout
import Idealize.ShloMosaic.Lib.StableHlo.Run
import Idealize.ShloMosaic.PureOps.Ideal.Laws

noncomputable section

namespace Cert.KerHost

open Idealize.ShloMosaic Idealize.ShloMosaic.TcCoe Idealize.ShloMosaic.ValueIdx Idealize.SL.Sem
open Cert.KernelIdeal Cert.KernelIdeal.Gen Cert.CpcSpec

variable (m : (ℓ : Loc nD τ sig) → Buf (Elt Ideal) ℓ)

/-- The four arguments on core `c`, as plain functions of an index. -/
abbrev a0 (c : Dev nD) : Base := m ((c : Thread nD τ).loc main_arg0)
abbrev a1 (c : Dev nD) : Ctx := m ((c : Thread nD τ).loc main_arg1)
abbrev a2 (c : Dev nD) : Lens := m ((c : Thread nD τ).loc main_arg2)
abbrev a3 (c : Dev nD) : (⟨2, ![64, 64]⟩ : Shape).Idx → BitVec 32 := m ((c : Thread nD τ).loc main_arg3)

/-- The gathered negatives, as the reference's own term of the same two arguments. -/
abbrev negs (c : Dev nD) : Negs := Cert.ReferenceIdeal.Read.val_main_v14 (F := Ideal) (a0 m c) (a3 m c)

/-- The first input array (the k-major flattened context) at row (b, r), column 128·k + e. -/
theorem mapped_apply (c : Dev nD) (b : Fin 64) (r : Fin 1024) (k : Fin 8) (e : Fin 128) :
    (V m c main_v13 : S64x1024x1024.Idx → EReal) (ix3 b r (⟨128 * k.val + e.val, by omega⟩ : Fin 1024)) = a1 m c (ix4 b r e k) := by
  -- the first input array as the operations' term: the reshape of the transpose of the context
  have h : (V m c main_v13 : S64x1024x1024.Idx → EReal)
      = shapeCast S64x1024x1024 (transpose S64x1024x8x128 [0, 1, 3, 2] (a1 m c) transposes_S64x1024x128x8_S64x1024x8x128_0_1_3_2)
          shapeCasts_S64x1024x8x128_S64x1024x1024 := by
    show StableHlo.after hostOps0 (fun b => m (c, b)) (Proc.devRef .tc main_v13) = _
    after_results
    rfl
  rw [h]
  -- row-major: ((b·1024 + r)·8 + k)·128 + e = (b·1024 + r)·1024 + (128·k + e)
  rw [shapeCast_apply _ shapeCasts_S64x1024x8x128_S64x1024x1024 _ (ix4 b r k e)
    (by rw [Shape.rowMajor_val_four, Shape.rowMajor_val_three]
        show ((b.val * 1024 + r.val) * 8 + k.val) * 128 + e.val = (b.val * 1024 + r.val) * 1024 + (128 * k.val + e.val)
        omega)]
  -- the transpose swaps the last two axes
  exact transpose_apply _ _ transposes_S64x1024x128x8_S64x1024x8x128_0_1_3_2 _ (ix4 b r e k)
    (fun a => match a with
      | ⟨0, _⟩ => rfl
      | ⟨1, _⟩ => rfl
      | ⟨2, _⟩ => rfl
      | ⟨3, _⟩ => rfl)

/-- The kernel program's gathered rows are the reference's: the same gather of the same reshape of the base at the same
    normalised indices. -/
private theorem gathered_eq (c : Dev nD) : (V m c main_v7 : S64x64x128.Idx → EReal) = negs m c := by
  show StableHlo.after hostOps0 (fun b => m (c, b)) (Proc.devRef .tc main_v7) = _
  after_results
  unfold negs Cert.ReferenceIdeal.Read.val_main_v14 Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_v8 Cert.ReferenceIdeal.Read.val_main_c Cert.ReferenceIdeal.Read.val_main_c_0
    Cert.ReferenceIdeal.Read.val_main_v7
  rfl

/-- The second input array (base minus the summed negatives) at (b, r, e). -/
theorem diff_apply (c : Dev nD) (b : Fin 64) (r : Fin 1024) (e : Fin 128) :
    (V m c main_v11 : S64x1024x128.Idx → EReal) (ix3 b r e) = a0 m c (ix3 b r e) - nsum (negs m c) b e := by
  -- the second input array as the operations' term: the base minus the twice-broadcast sum of the gathered rows
  have h : (V m c main_v11 : S64x1024x128.Idx → EReal)
      = subf (F := Ideal) (a0 m c)
          (broadcastInDim S64x1024x128 ![0, 1, 2] bcast_S64x1x128_S64x1024x128_0_1_2
            (broadcastInDim S64x1x128 ![0, 2] bcast_S64x128_S64x1x128_0_2
              (Host.reduceAdd (F := Ideal) (V m c main_v7 : S64x64x128.Idx → EReal) (constant (F := Ideal) S_ .f32 0x00000000#32)
                reducesTo_S64x64x128_S64x128_d1 h_S_))) := by
    show StableHlo.after hostOps0 (fun b => m (c, b)) (Proc.devRef .tc main_v11)
      = subf (F := Ideal) (a0 m c)
          (broadcastInDim S64x1024x128 ![0, 1, 2] bcast_S64x1x128_S64x1024x128_0_1_2
            (broadcastInDim S64x1x128 ![0, 2] bcast_S64x128_S64x1x128_0_2
              (Host.reduceAdd (F := Ideal) (StableHlo.after hostOps0 (fun b => m (c, b)) (Proc.devRef .tc main_v7)) (constant (F := Ideal) S_ .f32 0x00000000#32)
                reducesTo_S64x64x128_S64x128_d1 h_S_)))
    after_results_simp
  rw [h, gathered_eq]
  generalize negs m c = G
  rw [subf_apply]
  congr 1
  -- the outer broadcast reads (b, 0, e), the inner one (b, e)
  rw [broadcastInDim_apply _ bcast_S64x1x128_S64x1024x128_0_1_2 _ (ix3 b r e) (ix3 b (0 : Fin 1) e)
    (fun a => match a with
      | ⟨0, _⟩ => by show b.val = if (64 : Nat) = 1 then 0 else b.val; rw [if_neg (by decide)]
      | ⟨1, _⟩ => by show (0 : Nat) = if (1 : Nat) = 1 then 0 else r.val; rw [if_pos rfl]
      | ⟨2, _⟩ => by show e.val = if (128 : Nat) = 1 then 0 else e.val; rw [if_neg (by decide)])]
  rw [broadcastInDim_apply _ bcast_S64x128_S64x1x128_0_2 _ (ix3 b (0 : Fin 1) e) (ix2 b e)
    (fun a => match a with
      | ⟨0, _⟩ => by show b.val = if (64 : Nat) = 1 then 0 else b.val; rw [if_neg (by decide)]
      | ⟨1, _⟩ => by show e.val = if (128 : Nat) = 1 then 0 else e.val; rw [if_neg (by decide)])]
  -- the sum over the negatives' axis from the zero word
  simp only [Host.reduceAdd, Ideal.hostReduceAdd_def]
  rw [Ideal.hostReduceAdd_single reducesTo_S64x64x128_S64x128_d1 (by decide)]
  rw [nsum]
  show Ideal.ofBits .f32 0x00000000#32 + _ = _
  rw [Ideal.ofBits_zero_f32, zero_add]
  refine Finset.sum_congr rfl fun k _ => ?_
  exact congrArg G (funext fun a => Fin.ext (by match a with | ⟨0, _⟩ => rfl | ⟨1, _⟩ => rfl | ⟨2, _⟩ => rfl))

/-- The counts table at k is the k-th literal word. -/
theorem counts_apply (c : Dev nD) (k : Fin 8) :
    (V m c main_cst : S8.Idx → EReal) (ix1 k) = Ideal.ofBits .f32 (lit0 k) := by
  have h : (V m c main_cst : S8.Idx → EReal) = (fun i => FloatOps.ofBits (F := Ideal) .f32 (lit0 (S8.rowMajor i))) := by
    show StableHlo.after hostOps0 (fun b => m (c, b)) (Proc.devRef .tc main_cst) = _
    after_results
    rfl
  rw [h]
  -- the row-major position of a rank-one index is its coordinate
  have hk : S8.rowMajor (ix1 k) = k := Fin.ext (Shape.rowMajor_val_one _)
  show Ideal.ofBits .f32 (lit0 (S8.rowMajor (ix1 k))) = _
  rw [hk]

/-- The prefetched table is the lengths argument. -/
theorem tbl_eq (c : Dev nD) : (tbl m 0 : S64.Idx → BitVec 32) = a2 m c := by
  -- one device: every core is core 0; no operation before the region writes the lengths
  obtain rfl : c = 0 := Subsingleton.elim _ _
  exact V_main_arg2 m 0

end Cert.KerHost

end
-- ==== Proof.CpcLoss.lean ====
/-
  The loss as a function of the eight step scores: each score over its count `64 · (1023 − k)`, negated, the eight
  averaged.  The counts and the divisor 8 stay the float words both programs carry (the same words on both sides are
  never evaluated).  The two readings of the steps (CpcSpec) give two families of scores, equal when every entry is real.
-/
import proofs.«400458_j63127429316797_2_alg».proof.Proof.CpcSpec

noncomputable section

namespace Cert.CpcSpec

open Idealize.ShloMosaic Idealize.ShloMosaic.ValueIdx

/-- The eight counts `64 · 1023, 64 · 1022, …, 64 · 1016` as f32 words. -/
def cntWord : Fin 8 → BitVec 32 :=
  ![0x477FC000#32, 0x477F8000#32, 0x477F4000#32, 0x477F0000#32, 0x477EC000#32, 0x477E8000#32, 0x477E4000#32, 0x477E0000#32]

/-- One step's loss: minus the score over the count. -/
def stepLoss (s : EReal) (w : BitVec 32) : EReal := -(Ideal.div s (Ideal.ofBits .f32 w))

/-- The loss: the eight step losses averaged (the divisor is the word of 8.0). -/
def loss (S : Fin 8 → EReal) : EReal :=
  Ideal.div (∑ k : Fin 8, stepLoss (S k) (cntWord k)) (Ideal.ofBits .f32 0x41000000#32)

/-- The eight steps' scores in the log-ratio reading. -/
def ratioSteps (base : Base) (ctx : Ctx) (lens : Lens) (ns : Negs) : Fin 8 → EReal :=
  ![ratioStep 1023 0 (by decide) base ctx lens ns, ratioStep 1022 1 (by decide) base ctx lens ns,
    ratioStep 1021 2 (by decide) base ctx lens ns, ratioStep 1020 3 (by decide) base ctx lens ns,
    ratioStep 1019 4 (by decide) base ctx lens ns, ratioStep 1018 5 (by decide) base ctx lens ns,
    ratioStep 1017 6 (by decide) base ctx lens ns, ratioStep 1016 7 (by decide) base ctx lens ns]

/-- The eight steps' scores in the difference reading. -/
def diffSteps (base : Base) (ctx : Ctx) (lens : Lens) (ns : Negs) : Fin 8 → EReal :=
  ![diffStep 1023 0 (by decide) base ctx lens ns, diffStep 1022 1 (by decide) base ctx lens ns,
    diffStep 1021 2 (by decide) base ctx lens ns, diffStep 1020 3 (by decide) base ctx lens ns,
    diffStep 1019 4 (by decide) base ctx lens ns, diffStep 1018 5 (by decide) base ctx lens ns,
    diffStep 1017 6 (by decide) base ctx lens ns, diffStep 1016 7 (by decide) base ctx lens ns]

/-- With real entries the two families agree, step by step. -/
theorem ratioSteps_eq_diffSteps (base : Base) (ctx : Ctx) (lens : Lens) (ns : Negs)
    (hb : AllReal base) (hc : AllReal ctx) (hn : AllReal ns) :
    ratioSteps base ctx lens ns = diffSteps base ctx lens ns := by
  funext k
  fin_cases k <;> exact ratioStep_eq_diffStep _ _ _ base ctx lens ns hb hc hn

end Cert.CpcSpec

end
-- ==== Proof.KerArray.lean ====
/-
  From one grid point's block to the kernel's whole output array.

  Grid point t works on batch row t: every window's block index is (t, 0, 0).  So the point's first input block is row t
  of the k-major flattened context, its second is row t of the difference array (base minus the summed negatives), and
  its length word is the t-th length.  Read through the host prefix (KerHost), step k of the point is then the spec's
  row score of batch row t; the point writes its eight scores back as block t of the output array.
-/
import proofs.«400458_j63127429316797_2_alg».proof.Proof.Gen.KernelIdeal.Frame
import proofs.«400458_j63127429316797_2_alg».proof.Proof.KerPoint
import proofs.«400458_j63127429316797_2_alg».proof.Proof.KerHost
import proofs.«400458_j63127429316797_2_alg».proof.Proof.CpcLoss
import Idealize.ShloMosaic.Lib.Pipeline.Value
import Idealize.ShloMosaic.PureOps.Ideal.Laws

set_option maxRecDepth 16384
noncomputable section
namespace Cert.KerArray
open Idealize.ShloMosaic Idealize.ShloMosaic.TcCoe Idealize.ShloMosaic.ValueIdx Idealize.SL.Sem
open Idealize.ShloMosaic.Pipeline (Dat)
open Cert.KernelIdeal Cert.KernelIdeal.Gen Cert.CpcSpec Cert.KerPoint Cert.KerHost

variable (m : (ℓ : Loc nD τ sig) → Buf (Elt Ideal) ℓ)

/-- Over the grid: the point number is the batch row, and every window's block index is (row, 0, 0). -/
theorem idx_facts : ∀ t : Fin grid0.N, (grid0.coords t 0).val = t.val
    ∧ cc0_transform_0 (grid0.coords t) (0 : Fin 3) = t.val ∧ cc0_transform_0 (grid0.coords t) (1 : Fin 3) = 0 ∧ cc0_transform_0 (grid0.coords t) (2 : Fin 3) = 0
    ∧ cc0_transform_1 (grid0.coords t) (0 : Fin 3) = t.val ∧ cc0_transform_1 (grid0.coords t) (1 : Fin 3) = 0 ∧ cc0_transform_1 (grid0.coords t) (2 : Fin 3) = 0
    ∧ cc0_transform_2 (grid0.coords t) (0 : Fin 3) = t.val ∧ cc0_transform_2 (grid0.coords t) (1 : Fin 3) = 0 ∧ cc0_transform_2 (grid0.coords t) (2 : Fin 3) = 0 :=
  (by decide +kernel : ∀ t : Fin grid0.N, _)

theorem N64 (hO : Ok m) : (cfgM m hO).N = 64 := N_0

/-- The batch row a grid point works on. -/
abbrev rowOf (hO : Ok m) (t : Fin (cfgM m hO).N) : Fin 64 := ⟨t.val, lt_of_lt_of_eq t.isLt (N64 m hO)⟩

/-- The first input block of point `t` is batch row `t` of the flattened context. -/
theorem iblk0_apply (hO : Ok m) (c : Dev nD) (t : Fin (cfgM m hO).N) (r : Fin 1024) (col : Fin 1024) :
    (iblk m hO c 0 t : S1x1024x1024.Idx → EReal) (ix3 (0 : Fin 1) r col)
      = (V m c main_v13 : S64x1024x1024.Idx → EReal) (ix3 (rowOf m hO t) r col) := by
  obtain ⟨e0, e1, e2, e3, -⟩ := idx_facts t
  unfold iblk
  show V m c main_v13 _ = V m c main_v13 _
  congr 1
  funext a
  apply Fin.ext
  match a with
  | ⟨0, _⟩ => show cc0_transform_0 (grid0.coords t) (0 : Fin 3) * 1 + 1 * 0 = t.val; rw [e1]; omega
  | ⟨1, _⟩ => show cc0_transform_0 (grid0.coords t) (1 : Fin 3) * 1024 + 1 * r.val = r.val; rw [e2]; omega
  | ⟨2, _⟩ => show cc0_transform_0 (grid0.coords t) (2 : Fin 3) * 1024 + 1 * col.val = col.val; rw [e3]; omega

/-- The second input block of point `t` is batch row `t` of the difference array. -/
theorem iblk1_apply (hO : Ok m) (c : Dev nD) (t : Fin (cfgM m hO).N) (r : Fin 1024) (e : Fin 128) :
    (iblk m hO c 1 t : S1x1024x128.Idx → EReal) (ix3 (0 : Fin 1) r e)
      = (V m c main_v11 : S64x1024x128.Idx → EReal) (ix3 (rowOf m hO t) r e) := by
  obtain ⟨e0, -, -, -, e1, e2, e3, -⟩ := idx_facts t
  unfold iblk
  show V m c main_v11 _ = V m c main_v11 _
  congr 1
  funext a
  apply Fin.ext
  match a with
  | ⟨0, _⟩ => show cc0_transform_1 (grid0.coords t) (0 : Fin 3) * 1 + 1 * 0 = t.val; rw [e1]; omega
  | ⟨1, _⟩ => show cc0_transform_1 (grid0.coords t) (1 : Fin 3) * 1024 + 1 * r.val = r.val; rw [e2]; omega
  | ⟨2, _⟩ => show cc0_transform_1 (grid0.coords t) (2 : Fin 3) * 128 + 1 * e.val = e.val; rw [e3]; omega

/-- One step of one grid point, over the point's blocks and its length word, is the spec's row score of the point's
    batch row over the program's arguments. -/
theorem blockScore_eq (hO : Ok m) (c : Dev nD) (t : Fin (cfgM m hO).N) (n : ℕ) (k : Fin 8) (h : n + k.val + 1 = 1024) :
    blockScore n k h (iblk m hO c 0 t) (iblk m hO c 1 t) (tblWord c (grid0.coords t) (tbl m 0))
      = rowScore n k h (a0 m c) (a1 m c) (a2 m c) (negs m c) (rowOf m hO t) := by
  obtain ⟨e0, -⟩ := idx_facts t
  have hw : tblWord c (grid0.coords t) (tbl m 0) = a2 m c (ix1 (rowOf m hO t)) := by
    show (tbl m 0 : S64.Idx → BitVec 32) _ = _
    rw [tbl_eq m c]
    exact congrArg (a2 m c) (funext fun a => Fin.ext (by match a with | ⟨0, _⟩ => exact e0))
  unfold blockScore rowScore
  refine Finset.sum_congr rfl fun t' _ => Finset.sum_congr rfl fun e _ => ?_
  rw [iblk0_apply, iblk1_apply, mapped_apply, diff_apply, hw]
  rfl

/-- The eight row scores of a batch row. -/
def rowScores (base : Base) (ctx : Ctx) (lens : Lens) (ns : Negs) (b : Fin 64) : Fin 8 → EReal :=
  ![rowScore 1023 0 (by decide) base ctx lens ns b, rowScore 1022 1 (by decide) base ctx lens ns b,
    rowScore 1021 2 (by decide) base ctx lens ns b, rowScore 1020 3 (by decide) base ctx lens ns b,
    rowScore 1019 4 (by decide) base ctx lens ns b, rowScore 1018 5 (by decide) base ctx lens ns b,
    rowScore 1017 6 (by decide) base ctx lens ns b, rowScore 1016 7 (by decide) base ctx lens ns b]

theorem blockScores_eq (hO : Ok m) (c : Dev nD) (t : Fin (cfgM m hO).N) :
    blockScores (iblk m hO c 0 t) (iblk m hO c 1 t) (tblWord c (grid0.coords t) (tbl m 0))
      = rowScores (a0 m c) (a1 m c) (a2 m c) (negs m c) (rowOf m hO t) := by
  funext k
  unfold blockScores rowScores
  fin_cases k <;> exact blockScore_eq m hO c t _ _ _

/-- The output array after the run: entry (b, 0, k) is batch row b's score at step k. -/
def G (c : Dev nD) : S64x1x8.Idx → EReal := fun j =>
  rowScores (a0 m c) (a1 m c) (a2 m c) (negs m c) ⟨(j 0).val, (j 0).isLt⟩ ⟨(j 2).val, (j 2).isLt⟩

/-- What point `t` writes back is block `t` of `G`. -/
theorem flushed_eq (hO : Ok m) (c : Dev nD) (t : Fin (cfgM m hO).N) :
    (dats m hO 0 c).flushed 2 t = (((cfgM m hO).win 2).blk t).view.read (Elt Ideal) (G m c) := by
  show ((cfgM m hO).win 2).cut ((cfgM m hO).grid.coords t) ((dats m hO 0 c).after 2 t) = _
  rw [after0_2]
  obtain ⟨e0, -, -, -, -, -, -, e1, e2, e3⟩ := idx_facts t
  refine funext fun (j : S1x1x8.Idx) => ?_
  obtain ⟨u, v, k, rfl⟩ : ∃ (u v : Fin 1) (k : Fin 8), j = ix3 u v k := ⟨j 0, j 1, j 2, eq_ix3 j⟩
  obtain rfl : u = 0 := Subsingleton.elim _ _
  obtain rfl : v = 0 := Subsingleton.elim _ _
  show outsAt0 m hO c t (ix3 (0 : Fin 1) (0 : Fin 1) k) = G m c ((((cfgM m hO).win 2).blk t).view.emb (ix3 (0 : Fin 1) (0 : Fin 1) k))
  unfold outsAt0
  refine (block_apply c _ _ _ _ _ _ _ _ _ _ k).trans ?_
  refine (congrFun (blockScores_eq m hO c t) k).trans ?_
  unfold G
  congr 1
  · exact Fin.ext (by show t.val = cc0_transform_2 (grid0.coords t) (0 : Fin 3) * 1 + 1 * 0; rw [e1]; omega)
  · exact Fin.ext (by show k.val = cc0_transform_2 (grid0.coords t) (2 : Fin 3) * 8 + 1 * k.val; rw [e3]; omega)

end Cert.KerArray
end
-- ==== Proof.KerTail.lean ====
/-
  The lines after the kernel's region, read at the program's result: the output array [64, 1, 8] is viewed [64, 8],
  summed over the batch axis from the zero word, divided entry by entry by the table of counts, negated, summed over
  the eight steps from the zero word and divided by the word of 8.0 — the spec's loss of the column sums.
-/
import proofs.«400458_j63127429316797_2_alg».proof.Proof.Gen.KernelIdeal.Frame
import proofs.«400458_j63127429316797_2_alg».proof.Proof.CpcLoss
import Idealize.ShloMosaic.Lib.Pipeline.Value
import Idealize.ShloMosaic.Lib.ValueLayout
import Idealize.ShloMosaic.Lib.StableHlo.Run
import Idealize.ShloMosaic.PureOps.Ideal.Laws

noncomputable section

namespace Cert.KerTail

open Idealize.ShloMosaic Idealize.ShloMosaic.TcCoe Idealize.ShloMosaic.ValueIdx Idealize.SL.Sem
open Cert.KernelIdeal Cert.KernelIdeal.Gen Cert.CpcSpec

variable (m : (ℓ : Loc nD τ sig) → Buf (Elt Ideal) ℓ)

/-- A rank-1 index set of extent 8 is its coordinate range. -/
private def idx8 : S8.Idx ≃ Fin 8 where
  toFun i := i 0
  invFun := ix1
  left_inv i := (eq_ix1 i).symm
  right_inv _ := rfl

/-- A sum over the indices of a vector of eight is the sum over its eight coordinates. -/
private theorem sum_S8 (f : S8.Idx → EReal) : ∑ j, f j = ∑ k : Fin 8, f (ix1 k) := by
  rw [← Equiv.sum_comp idx8.symm f]
  rfl

/-- The table of counts at position k is the k-th count's word. -/
private theorem lit0_eq (k : Fin 8) : lit0 (S8.rowMajor (ix1 k)) = cntWord k := by
  have hk : S8.rowMajor (ix1 k) = k := Fin.ext (Shape.rowMajor_val_one _)
  rw [hk]
  fin_cases k <;> rfl

/-- The lines after the region as one function of the output array viewed [64, 8]. -/
private theorem tail_calc (G : S64x1x8.Idx → EReal) (V : S64x8.Idx → EReal)
    (hV : ∀ (b : Fin 64) (k : Fin 8), V (ix2 b k) = G (ix3 b (0 : Fin 1) k)) :
    (Host.divf (Host.reduceAdd (Host.negf (Host.divf
        (Host.reduceAdd (F := Ideal) (φ := .f32) V (constant S_ .f32 0x00000000#32) reducesTo_S64x8_S8_d0 h_S_)
        (fun i => FloatOps.ofBits (F := Ideal) .f32 (lit0 (S8.rowMajor i)))))
      (constant S_ .f32 0x00000000#32) reducesTo_S8_S_d0 h_S_) (constant S_ .f32 0x41000000#32) : S_.Idx → EReal)
    = fun _ => loss (fun k => ∑ b : Fin 64, G (ix3 b (0 : Fin 1) k)) := by
  funext j
  -- the outer sum runs over the eight entries, from the zero word
  simp only [Host.divf, Host.reduceAdd, Ideal.hostReduceAdd_def, Ideal.hostDivf_def, constant_apply, Ideal.ofBits_def,
    Ideal.ofBits_zero_f32]
  rw [Ideal.hostReduceAdd_total reducesTo_S8_S_d0 (fun b => b.elim0), sum_S8, zero_add, loss]
  refine congrArg (fun s => Ideal.div s _) (Finset.sum_congr rfl fun k _ => ?_)
  -- entry k: minus the column sum over the k-th count
  simp only [Host.negf, Host.divf, Ideal.hostDivf_def, Ideal.hostNegf_def, Ideal.negf_def, Ideal.ofBits_def, stepLoss]
  rw [Ideal.hostReduceAdd_single reducesTo_S64x8_S8_d0 (by decide), zero_add, lit0_eq]
  refine congrArg (fun s => -(Ideal.div s _)) (Finset.sum_congr rfl fun b _ => ?_)
  exact (congrArg V (funext fun a => Fin.ext (by match a with | ⟨0, _⟩ => rfl | ⟨1, _⟩ => rfl))).trans (hV b k)

/-- The program's result after the lines that follow the region, when the region's output array holds `G`. -/
theorem tail_value (hO : Ok m) (c : Dev nD) (G : S64x1x8.Idx → EReal)
    (hG : ((dats m hO 0 c).arrAt 2 (cfgM m hO).N : S64x1x8.Idx → EReal) = G) :
    (Pipeline.afterTail pcfgs (fun _ => adm m hO) (dats m hO) 0 (V0 m) [hostOps1] c main_v20 : S_.Idx → EReal)
      = fun _ => loss (fun k => ∑ b : Fin 64, G (ix3 b (0 : Fin 1) k)) := by
  unfold Pipeline.afterTail
  show StableHlo.after hostOps1 _ (Proc.devRef .tc main_v20) = _
  after_results
  -- the region's output array is read back; the table of counts is as the first line before the region wrote it
  have hA : Pipeline.withArrays (Pipeline.pin pcfgs (fun _ => adm m hO) 0).spec c (V0 m c)
      (fun w => (dats m hO 0 c).arrAt w (Pipeline.pin pcfgs (fun _ => adm m hO) 0).N) (Proc.devRef .tc main_v14) = G :=
    (Pipeline.withArrays_arr spec0 (launch0 (F := Ideal)).win.arr_inj c _ _ 2).trans hG
  have hC : Pipeline.withArrays (Pipeline.pin pcfgs (fun _ => adm m hO) 0).spec c (V0 m c)
      (fun w => (dats m hO 0 c).arrAt w (Pipeline.pin pcfgs (fun _ => adm m hO) 0).N) (Proc.devRef .tc main_cst)
      = (fun i => FloatOps.ofBits (F := Ideal) .f32 (lit0 (S8.rowMajor i)) : S8.Idx → EReal) := by
    rw [Pipeline.withArrays_of_ne _ c (V0 m c) _ main_cst (by exact (by decide : ∀ w, Pipeline.arrRef spec0 w ≠ main_cst))]
    show StableHlo.after hostOps0 (fun b => m (c, b)) (Proc.devRef .tc main_cst) = _
    after_results
    rfl
  rw [hA, hC]
  -- the view [64, 8] at (b, k) is the array at (b, 0, k)
  refine tail_calc G _ fun b k => ?_
  show shapeCast S64x8 G shapeCasts_S64x1x8_S64x8 (ix2 b k) = G (ix3 b (0 : Fin 1) k)
  refine shapeCast_apply G shapeCasts_S64x1x8_S64x8 (ix2 b k) (ix3 b (0 : Fin 1) k) ?_
  rw [Shape.rowMajor_val_three, Shape.rowMajor_val_two]
  show (b.val * 1 + 0) * 8 + k.val = b.val * 8 + k.val
  omega

end Cert.KerTail

end
-- ==== Proof.KerFinal.lean ====
/-
  The kernel's output array and result.

  The 64 blocks [1, 1, 8], one per batch row, tile the output array [64, 1, 8], so after the run the array is the table
  of row scores; summed over the batch, its column k is the difference reading of step k; the lines after the region
  turn the eight column sums into the loss.
-/
import proofs.«400458_j63127429316797_2_alg».proof.Proof.KerArray
import proofs.«400458_j63127429316797_2_alg».proof.Proof.KerTail
import Idealize.ShloMosaic.Lib.Pipeline.Value

set_option maxRecDepth 16384
noncomputable section
namespace Cert.KerArray
open Idealize.ShloMosaic Idealize.ShloMosaic.TcCoe Idealize.ShloMosaic.ValueIdx Idealize.SL.Sem
open Idealize.ShloMosaic.Pipeline (Dat)
open Cert.KernelIdeal Cert.KernelIdeal.Gen Cert.CpcSpec Cert.KerPoint Cert.KerHost

variable (m : (ℓ : Loc nD τ sig) → Buf (Elt Ideal) ℓ)

/-- An index of the output array is in point `t`'s block iff each coordinate is in the block's range on its axis. -/
theorem mem_blk (hO : Ok m) (t : Fin (cfgM m hO).N) (i : S64x1x8.Idx) :
    i ∈ (((cfgM m hO).win 2).blk t).view.set ↔ ∀ a : Fin 3, cc0_transform_2 (grid0.coords t) a * S1x1x8.size a ≤ (i a).val ∧ (i a).val < cc0_transform_2 (grid0.coords t) a * S1x1x8.size a + S1x1x8.size a := by
  show i ∈ ((View.whole main_v14).slice (((cfgM m hO).win 2).rect t)).set ↔ _
  refine (Iff.of_eq (congrArg (fun s => i ∈ s) (View.set_slice_whole main_v14 (((cfgM m hO).win 2).rect t)))).trans ?_
  exact Rect.mem_set_unit

/-- Every index of the output array lies in the block of its batch row's grid point. -/
theorem cover (hO : Ok m) (c : Dev nD) (i : S64x1x8.Idx) :
    ∃ t : Fin (cfgM m hO).N, ((cfgM m hO).win 2).flush t = true ∧ i ∈ (((cfgM m hO).win 2).blk t).view.set := by
  have hi0 : (i 0).val < 64 := (i 0).isLt
  have hi1 : (i 1).val < 1 := (i 1).isLt
  have hi2 : (i 2).val < 8 := (i 2).isLt
  obtain ⟨t, ht⟩ : ∃ t : Fin (cfgM m hO).N, t.val = (i 0).val := ⟨⟨(i 0).val, lt_of_lt_of_eq hi0 (N64 m hO).symm⟩, rfl⟩
  obtain ⟨-, -, -, -, -, -, -, e1, e2, e3⟩ := idx_facts t
  refine ⟨t, flush0_2 (adm m hO) t, ?_⟩
  rw [mem_blk]
  intro a
  match a with
  | ⟨0, _⟩ =>
    show cc0_transform_2 (grid0.coords t) (0 : Fin 3) * 1 ≤ (i 0).val ∧ (i 0).val < cc0_transform_2 (grid0.coords t) (0 : Fin 3) * 1 + 1
    rw [e1]; omega
  | ⟨1, _⟩ =>
    show cc0_transform_2 (grid0.coords t) (1 : Fin 3) * 1 ≤ (i 1).val ∧ (i 1).val < cc0_transform_2 (grid0.coords t) (1 : Fin 3) * 1 + 1
    rw [e2]; omega
  | ⟨2, _⟩ =>
    show cc0_transform_2 (grid0.coords t) (2 : Fin 3) * 8 ≤ (i 2).val ∧ (i 2).val < cc0_transform_2 (grid0.coords t) (2 : Fin 3) * 8 + 8
    rw [e3]; omega

/-- Entry (b, 0, k) of `G` is batch row b's score at step k. -/
theorem G_apply (c : Dev nD) (b : Fin 64) (k : Fin 8) :
    G m c (ix3 b (0 : Fin 1) k) = rowScores (a0 m c) (a1 m c) (a2 m c) (negs m c) b k := rfl

/-- Summed over the batch, column k of the output array is the difference reading of step k. -/
theorem colSum_eq (c : Dev nD) :
    (fun k : Fin 8 => ∑ b : Fin 64, G m c (ix3 b (0 : Fin 1) k)) = diffSteps (a0 m c) (a1 m c) (a2 m c) (negs m c) := by
  funext k
  simp only [G_apply]
  unfold diffSteps rowScores
  fin_cases k
  all_goals exact Finset.sum_congr rfl fun b _ => rfl

/-- THE OUTPUT ARRAY after the run is `G`: the 64 blocks, one per batch row, tile it. -/
theorem final (hO : Ok m) (c : Dev nD) : (dats m hO 0 c).arrAt 2 (cfgM m hO).N = G m c :=
  (dats m hO 0 c).arrAt_eq_of_cover 2 (G m c) (fun t _ => flushed_eq m hO c t) (fun i => cover m hO c i)

/-- The kernel's program, run: it terminates with its result at the loss of the eight difference-reading scores of
    its arguments, and the arguments unchanged. -/
theorem run (ρ : Dev nD → PrngReg) (hO : Ok m) :
    θ_run defs (onTc (τ := τ) (main (F := Ideal))) ⟨m, fun _ => 0, ρ⟩ (fun r => ∀ c : Dev nD,
      r.2.mem ((c.tc : Thread nD τ).loc main_v20) = (fun _ => loss (diffSteps (a0 m c) (a1 m c) (a2 m c) (negs m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v20 (by decide : main_v20 ∈ Pipeline.restRefs sig spec0)).trans
        ((Cert.KerTail.tail_value m hO c (G m c) (final m hO c)).trans
          (congrArg (fun S : Fin 8 → EReal => fun _ : S_.Idx => loss S) (colSum_eq m c))),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c)⟩)
    (run_main m ρ hO)

end Cert.KerArray
end
-- ==== Proof.RefMask.lean ====
/-
  The reference's masked context, read at an index: the context entry times the length mask of its (b, t).
  The mask is built from an iota along the time axis compared (signed) with the broadcast lengths and converted
  to a float: 1 where t < lens b, 0 elsewhere; two broadcasts carry it to the context's shape.
-/
import proofs.«400458_j63127429316797_2_alg».proof.Proof.Gen.ReferenceIdeal.Read
import proofs.«400458_j63127429316797_2_alg».proof.Proof.CpcSpec

noncomputable section

namespace Cert.RefSteps

open Idealize.ShloMosaic Idealize.ShloMosaic.ValueIdx Cert.ReferenceIdeal Cert.ReferenceIdeal.Read Cert.CpcSpec

/-- The masked context at (b, t, e, k) is the spec's `ce`. -/
theorem masked_ctx_apply (x1 : Ctx) (x2 : Lens) (b : Fin 64) (t : Fin 1024) (e : Fin 128) (k : Fin 8) :
    val_main_v17 (F := Ideal) x1 x2 (ix4 b t e k) = ce x1 x2 k b t e := by
  -- the broadcast lengths are read at row b
  have hlen : idx_main_v2 (idx_main_v4 (idx_main_v15 (idx_main_v16 (ix4 b t e k)))) = ix1 b :=
    funext fun a => Fin.ext (by match a with | ⟨0, _⟩ => rfl)
  -- the iota is read at time t
  have htime : ((idx_main_v1 (idx_main_v3 (idx_main_v15 (idx_main_v16 (ix4 b t e k))))) 0).val = t.val := rfl
  rw [val_main_v17_apply, val_main_v16_apply, val_main_v15_apply, val_main_v6_apply, val_main_v5_apply,
    val_main_v3_apply, val_main_v1_apply, val_main_v0_apply, val_main_v4_apply, val_main_v2_apply, hlen, htime]
  rfl

end Cert.RefSteps

end
-- ==== Proof.RefStep1.lean ====
/-
  Step 1 of the reference (rows 0 … 1022 of the masked context against rows 1 … 1023 of the base), read at its
  one index: minus the log-ratio score of the step, summed over the 64 × 1023 grid, over the count 64 · 1023.
-/
import proofs.«400458_j63127429316797_2_alg».proof.Proof.Gen.ReferenceIdeal.Read
import proofs.«400458_j63127429316797_2_alg».proof.Proof.CpcSpec
import proofs.«400458_j63127429316797_2_alg».proof.Proof.RefMask

noncomputable section

namespace Cert.RefSteps

open Idealize.ShloMosaic Idealize.ShloMosaic.ValueIdx Cert.ReferenceIdeal Cert.ReferenceIdeal.Read Cert.CpcSpec

/-- The step's context rows, read at (b, t, e): the masked context of step 0 at row t. -/
private theorem ctx_apply (x1 : Ctx) (x2 : Lens) (b : Fin 64) (t : Fin 1023) (e : Fin 128) :
    val_main_v19 (F := Ideal) x1 x2 (ix3 b t e) = ce x1 x2 0 b (lo 0 (by decide) t) e := by
  -- the reshape drops the unit axis of the slice, and the slice starts at row 0 and column 0
  have hidx : idx_main_v18 (idx_main_v19 (ix3 b t e)) = ix4 b (lo 0 (by decide) t) e (0 : Fin 8) :=
    funext fun a => Fin.ext (by
      have hb := b.isLt; have ht := t.isLt; have he := e.isLt
      match a with
      | ⟨0, _⟩ => show ((b.val * 1023 + t.val) * 128 + e.val) / 130944 = b.val; omega
      | ⟨1, _⟩ => show ((b.val * 1023 + t.val) * 128 + e.val) / 128 % 1023 = t.val; omega
      | ⟨2, _⟩ => show ((b.val * 1023 + t.val) * 128 + e.val) / 1 % 128 = e.val; omega
      | ⟨3, _⟩ => rfl)
  rw [val_main_v19_apply, val_main_v18_apply, hidx, masked_ctx_apply]

/-- The positive pair's product at (b, t, e): the masked context times the base one row later. -/
private theorem pos_apply (x0 : Base) (x1 : Ctx) (x2 : Lens) (b : Fin 64) (t : Fin 1023) (e : Fin 128) :
    val_main_v21 (F := Ideal) x0 x1 x2 (idx_main_v22 (ix2 b t) e)
      = ce x1 x2 0 b (lo 0 (by decide) t) e * x0 (ix3 b (hi 0 (by decide) t) e) := by
  have hsum : idx_main_v22 (ix2 b t) e = ix3 b t e :=
    funext fun a => Fin.ext (by match a with | ⟨0, _⟩ => rfl | ⟨1, _⟩ => rfl | ⟨2, _⟩ => rfl)
  -- the base slice starts at row 1: row t of the slice is row t + 1 of the base
  have hbase : idx_main_v20 (ix3 b t e) = ix3 b (hi 0 (by decide) t) e :=
    funext fun a => Fin.ext (by
      match a with
      | ⟨0, _⟩ => rfl
      | ⟨1, _⟩ => show 1 + t.val = t.val + 0 + 1; omega
      | ⟨2, _⟩ => rfl)
  rw [hsum, val_main_v21_apply, val_main_v20_apply, hbase, ctx_apply]
  rfl

/-- The score against the n'-th negative at (b, t): the masked context's row against that negative. -/
private theorem neg_apply (x0 : Base) (x1 : Ctx) (x2 : Lens) (x3 : (⟨2, ![64, 64]⟩ : Shape).Idx → BitVec 32)
    (b : Fin 64) (t : Fin 1023) (n' : Fin 64) :
    val_main_v24 (F := Ideal) x0 x1 x2 x3 (idx_main_v25 (ix2 b t) n')
      = ∑ e : Fin 128, ce x1 x2 0 b (lo 0 (by decide) t) e * val_main_v14 (F := Ideal) x0 x3 (ix3 b n' e) := by
  rw [val_main_v24_apply]
  refine Finset.sum_congr rfl fun e _ => ?_
  have hl : lidx_main_v24 (idx_main_v25 (ix2 b t) n') e = ix3 b t e :=
    funext fun a => Fin.ext (by match a with | ⟨0, _⟩ => rfl | ⟨1, _⟩ => rfl | ⟨2, _⟩ => rfl)
  have hr : ridx_main_v24 (idx_main_v25 (ix2 b t) n') e = ix3 b n' e :=
    funext fun a => Fin.ext (by match a with | ⟨0, _⟩ => rfl | ⟨1, _⟩ => rfl | ⟨2, _⟩ => rfl)
  rw [hl, hr, ctx_apply]

/-- One (b, t) of the step: the reference's logarithm of the ratio is the spec's log-ratio. -/
private theorem cell_apply (x0 : Base) (x1 : Ctx) (x2 : Lens) (x3 : (⟨2, ![64, 64]⟩ : Shape).Idx → BitVec 32)
    (b : Fin 64) (t : Fin 1023) :
    val_main_v28 (F := Ideal) x0 x1 x2 x3 (ix2 b t)
      = logRatio 1023 0 (by decide) x0 x1 x2 (val_main_v14 (F := Ideal) x0 x3) b t := by
  rw [val_main_v28_apply, val_main_v27_apply, val_main_v23_apply, val_main_v22_apply, val_main_v26_apply,
    val_main_v25_apply, val_main_cst_apply, val_main_cst_1_apply]
  simp only [Ideal.hostUnary_log_def, Ideal.hostDivf_def, Ideal.hostUnary_exp_def, Ideal.ofBits_def,
    Ideal.ofBits_zero_f32, zero_add, pos_apply, neg_apply]
  rfl

/-- The reference's negated mean of step 1 is the spec's log-ratio reading over the count's word. -/
theorem step1_eq (x0 : Base) (x1 : Ctx) (x2 : Lens) (x3 : (⟨2, ![64, 64]⟩ : Shape).Idx → BitVec 32) (i : S_.Idx) :
    val_main_v31 (F := Ideal) x0 x1 x2 x3 i
      = -(Ideal.div (ratioStep 1023 0 (by decide) x0 x1 x2 (val_main_v14 (F := Ideal) x0 x3)) (Ideal.ofBits .f32 0x477FC000#32)) := by
  rw [val_main_v31_apply, val_main_v30_apply, val_main_v29_apply, val_main_cst_2_apply, val_main_cst_3_apply]
  simp only [Ideal.hostNegf_def, Ideal.negf_def, Ideal.hostDivf_def, Ideal.ofBits_def, Ideal.ofBits_zero_f32, zero_add]
  rw [ratioStep, sum_idx2, sum_idx2]
  refine congrArg (fun s => -(Ideal.div s _)) ?_
  exact Finset.sum_congr rfl fun b _ => Finset.sum_congr rfl fun t _ => cell_apply x0 x1 x2 x3 b t

end Cert.RefSteps

end
-- ==== Proof.RefStep2.lean ====
/-
  Step 2 of the reference (rows 0 … 1021 of the masked context against rows 2 … 1023 of the base), read at its
  one index: minus the log-ratio score of the step, summed over the 64 × 1022 grid, over the count 64 · 1022.
-/
import proofs.«400458_j63127429316797_2_alg».proof.Proof.Gen.ReferenceIdeal.Read
import proofs.«400458_j63127429316797_2_alg».proof.Proof.CpcSpec
import proofs.«400458_j63127429316797_2_alg».proof.Proof.RefMask

noncomputable section

namespace Cert.RefSteps

open Idealize.ShloMosaic Idealize.ShloMosaic.ValueIdx Cert.ReferenceIdeal Cert.ReferenceIdeal.Read Cert.CpcSpec

/-- The context rows of step 2 (feature column 1 of the masked context, rows 0 … 1021), read at (b, t, e). -/
private theorem ctx_apply (x1 : Ctx) (x2 : Lens) (b : Fin 64) (t : Fin 1022) (e : Fin 128) :
    val_main_v33 (F := Ideal) x1 x2 (ix3 b t e) = ce x1 x2 1 b (lo 1 (by decide) t) e := by
  -- the slice keeps rows 0 … 1021 and starts at column 1; the reshape only forgets the unit axis
  have hidx : idx_main_v32 (idx_main_v33 (ix3 b t e)) = ix4 b (lo 1 (by decide) t) e (1 : Fin 8) :=
    funext fun a => Fin.ext (by
      have hb := b.isLt; have ht := t.isLt; have he := e.isLt
      match a with
      | ⟨0, _⟩ => show ((b.val * 1022 + t.val) * 128 + e.val) / 130816 = b.val; omega
      | ⟨1, _⟩ => show ((b.val * 1022 + t.val) * 128 + e.val) / 128 % 1022 = t.val; omega
      | ⟨2, _⟩ => show ((b.val * 1022 + t.val) * 128 + e.val) / 1 % 128 = e.val; omega
      | ⟨3, _⟩ => rfl)
  rw [val_main_v33_apply, val_main_v32_apply, hidx, masked_ctx_apply]

/-- The positive pair of step 2 at (b, t, e): the masked context times the base two rows later. -/
private theorem pos_apply (x0 : Base) (x1 : Ctx) (x2 : Lens) (b : Fin 64) (t : Fin 1022) (e : Fin 128) :
    val_main_v35 (F := Ideal) x0 x1 x2 (idx_main_v36 (ix2 b t) e)
      = ce x1 x2 1 b (lo 1 (by decide) t) e * x0 (ix3 b (hi 1 (by decide) t) e) := by
  have hsum : idx_main_v36 (ix2 b t) e = ix3 b t e :=
    funext fun a => Fin.ext (by match a with | ⟨0, _⟩ => rfl | ⟨1, _⟩ => rfl | ⟨2, _⟩ => rfl)
  -- the base slice starts at row 2: its row t is row t + 2 of the base
  have hbase : idx_main_v34 (ix3 b t e) = ix3 b (hi 1 (by decide) t) e :=
    funext fun a => Fin.ext (by
      match a with
      | ⟨0, _⟩ => rfl
      | ⟨1, _⟩ => show 2 + t.val = t.val + 1 + 1; omega
      | ⟨2, _⟩ => rfl)
  rw [hsum, val_main_v35_apply, val_main_v34_apply, hbase, ctx_apply]
  rfl

/-- The score of (b, t) against the n'-th negative in step 2: the sum over features of masked context times negative. -/
private theorem neg_apply (x0 : Base) (x1 : Ctx) (x2 : Lens) (x3 : (⟨2, ![64, 64]⟩ : Shape).Idx → BitVec 32)
    (b : Fin 64) (t : Fin 1022) (n' : Fin 64) :
    val_main_v38 (F := Ideal) x0 x1 x2 x3 (idx_main_v39 (ix2 b t) n')
      = ∑ e : Fin 128, ce x1 x2 1 b (lo 1 (by decide) t) e * val_main_v14 (F := Ideal) x0 x3 (ix3 b n' e) := by
  rw [val_main_v38_apply]
  refine Finset.sum_congr rfl fun e _ => ?_
  have hl : lidx_main_v38 (idx_main_v39 (ix2 b t) n') e = ix3 b t e :=
    funext fun a => Fin.ext (by match a with | ⟨0, _⟩ => rfl | ⟨1, _⟩ => rfl | ⟨2, _⟩ => rfl)
  have hr : ridx_main_v38 (idx_main_v39 (ix2 b t) n') e = ix3 b n' e :=
    funext fun a => Fin.ext (by match a with | ⟨0, _⟩ => rfl | ⟨1, _⟩ => rfl | ⟨2, _⟩ => rfl)
  rw [hl, hr, ctx_apply]

/-- One (b, t) of step 2: log of (exp of the positive score over exp of the summed negative scores) is the spec's log-ratio. -/
private theorem cell_apply (x0 : Base) (x1 : Ctx) (x2 : Lens) (x3 : (⟨2, ![64, 64]⟩ : Shape).Idx → BitVec 32)
    (b : Fin 64) (t : Fin 1022) :
    val_main_v42 (F := Ideal) x0 x1 x2 x3 (ix2 b t)
      = logRatio 1022 1 (by decide) x0 x1 x2 (val_main_v14 (F := Ideal) x0 x3) b t := by
  rw [val_main_v42_apply, val_main_v41_apply, val_main_v37_apply, val_main_v36_apply, val_main_v40_apply,
    val_main_v39_apply, val_main_cst_4_apply, val_main_cst_5_apply]
  simp only [Ideal.hostUnary_log_def, Ideal.hostDivf_def, Ideal.hostUnary_exp_def, Ideal.ofBits_def,
    Ideal.ofBits_zero_f32, zero_add, pos_apply, neg_apply]
  rfl

/-- The reference's negated mean of step 2 is the spec's log-ratio reading over the count's word. -/
theorem step2_eq (x0 : Base) (x1 : Ctx) (x2 : Lens) (x3 : (⟨2, ![64, 64]⟩ : Shape).Idx → BitVec 32) (i : S_.Idx) :
    val_main_v45 (F := Ideal) x0 x1 x2 x3 i
      = -(Ideal.div (ratioStep 1022 1 (by decide) x0 x1 x2 (val_main_v14 (F := Ideal) x0 x3)) (Ideal.ofBits .f32 0x477F8000#32)) := by
  -- negation of (the total over the 64 × 1022 grid, started from the zero word, over the count's word)
  rw [val_main_v45_apply, val_main_v44_apply, val_main_v43_apply, val_main_cst_6_apply, val_main_cst_7_apply]
  simp only [Ideal.hostNegf_def, Ideal.negf_def, Ideal.hostDivf_def, Ideal.ofBits_def, Ideal.ofBits_zero_f32, zero_add]
  rw [ratioStep, sum_idx2, sum_idx2]
  refine congrArg (fun s => -(Ideal.div s _)) ?_
  exact Finset.sum_congr rfl fun b _ => Finset.sum_congr rfl fun t _ => cell_apply x0 x1 x2 x3 b t

end Cert.RefSteps

end
-- ==== Proof.RefStep3.lean ====
/-
  Step 3 of the reference (rows 0 … 1020 of the masked context against rows 3 … 1023 of the base), read at its
  one index: minus the log-ratio score of the step, summed over the 64 × 1021 grid, over the count 64 · 1021.
-/
import proofs.«400458_j63127429316797_2_alg».proof.Proof.Gen.ReferenceIdeal.Read
import proofs.«400458_j63127429316797_2_alg».proof.Proof.CpcSpec
import proofs.«400458_j63127429316797_2_alg».proof.Proof.RefMask

noncomputable section

namespace Cert.RefSteps

open Idealize.ShloMosaic Idealize.ShloMosaic.ValueIdx Cert.ReferenceIdeal Cert.ReferenceIdeal.Read Cert.CpcSpec

/-- The context rows of step 3 (feature column 2 of the masked context, rows 0 … 1020), read at (b, t, e). -/
private theorem ctx_apply (x1 : Ctx) (x2 : Lens) (b : Fin 64) (t : Fin 1021) (e : Fin 128) :
    val_main_v47 (F := Ideal) x1 x2 (ix3 b t e) = ce x1 x2 2 b (lo 2 (by decide) t) e := by
  -- rows 0 … 1020 are kept and the column is 2; dropping the unit axis moves no entry
  have hidx : idx_main_v46 (idx_main_v47 (ix3 b t e)) = ix4 b (lo 2 (by decide) t) e (2 : Fin 8) :=
    funext fun a => Fin.ext (by
      have hb := b.isLt; have ht := t.isLt; have he := e.isLt
      match a with
      | ⟨0, _⟩ => show ((b.val * 1021 + t.val) * 128 + e.val) / 130688 = b.val; omega
      | ⟨1, _⟩ => show ((b.val * 1021 + t.val) * 128 + e.val) / 128 % 1021 = t.val; omega
      | ⟨2, _⟩ => show ((b.val * 1021 + t.val) * 128 + e.val) / 1 % 128 = e.val; omega
      | ⟨3, _⟩ => rfl)
  rw [val_main_v47_apply, val_main_v46_apply, hidx, masked_ctx_apply]

/-- The positive pair of step 3 at (b, t, e): the masked context times the base three rows later. -/
private theorem pos_apply (x0 : Base) (x1 : Ctx) (x2 : Lens) (b : Fin 64) (t : Fin 1021) (e : Fin 128) :
    val_main_v49 (F := Ideal) x0 x1 x2 (idx_main_v50 (ix2 b t) e)
      = ce x1 x2 2 b (lo 2 (by decide) t) e * x0 (ix3 b (hi 2 (by decide) t) e) := by
  have hsum : idx_main_v50 (ix2 b t) e = ix3 b t e :=
    funext fun a => Fin.ext (by match a with | ⟨0, _⟩ => rfl | ⟨1, _⟩ => rfl | ⟨2, _⟩ => rfl)
  -- the base slice starts at row 3: its row t is row t + 3 of the base
  have hbase : idx_main_v48 (ix3 b t e) = ix3 b (hi 2 (by decide) t) e :=
    funext fun a => Fin.ext (by
      match a with
      | ⟨0, _⟩ => rfl
      | ⟨1, _⟩ => show 3 + t.val = t.val + 2 + 1; omega
      | ⟨2, _⟩ => rfl)
  rw [hsum, val_main_v49_apply, val_main_v48_apply, hbase, ctx_apply]
  rfl

/-- The score of (b, t) against the n'-th negative in step 3: over the features, masked context times that negative. -/
private theorem neg_apply (x0 : Base) (x1 : Ctx) (x2 : Lens) (x3 : (⟨2, ![64, 64]⟩ : Shape).Idx → BitVec 32)
    (b : Fin 64) (t : Fin 1021) (n' : Fin 64) :
    val_main_v52 (F := Ideal) x0 x1 x2 x3 (idx_main_v53 (ix2 b t) n')
      = ∑ e : Fin 128, ce x1 x2 2 b (lo 2 (by decide) t) e * val_main_v14 (F := Ideal) x0 x3 (ix3 b n' e) := by
  rw [val_main_v52_apply]
  refine Finset.sum_congr rfl fun e _ => ?_
  have hl : lidx_main_v52 (idx_main_v53 (ix2 b t) n') e = ix3 b t e :=
    funext fun a => Fin.ext (by match a with | ⟨0, _⟩ => rfl | ⟨1, _⟩ => rfl | ⟨2, _⟩ => rfl)
  have hr : ridx_main_v52 (idx_main_v53 (ix2 b t) n') e = ix3 b n' e :=
    funext fun a => Fin.ext (by match a with | ⟨0, _⟩ => rfl | ⟨1, _⟩ => rfl | ⟨2, _⟩ => rfl)
  rw [hl, hr, ctx_apply]

/-- One (b, t) of step 3: the logarithm of exp(positive score) over exp(total negative score) is the spec's log-ratio. -/
private theorem cell_apply (x0 : Base) (x1 : Ctx) (x2 : Lens) (x3 : (⟨2, ![64, 64]⟩ : Shape).Idx → BitVec 32)
    (b : Fin 64) (t : Fin 1021) :
    val_main_v56 (F := Ideal) x0 x1 x2 x3 (ix2 b t)
      = logRatio 1021 2 (by decide) x0 x1 x2 (val_main_v14 (F := Ideal) x0 x3) b t := by
  rw [val_main_v56_apply, val_main_v55_apply, val_main_v51_apply, val_main_v50_apply, val_main_v54_apply,
    val_main_v53_apply, val_main_cst_8_apply, val_main_cst_9_apply]
  simp only [Ideal.hostUnary_log_def, Ideal.hostDivf_def, Ideal.hostUnary_exp_def, Ideal.ofBits_def,
    Ideal.ofBits_zero_f32, zero_add, pos_apply, neg_apply]
  rfl

/-- The reference's negated mean of step 3 is the spec's log-ratio reading over the count's word. -/
theorem step3_eq (x0 : Base) (x1 : Ctx) (x2 : Lens) (x3 : (⟨2, ![64, 64]⟩ : Shape).Idx → BitVec 32) (i : S_.Idx) :
    val_main_v59 (F := Ideal) x0 x1 x2 x3 i
      = -(Ideal.div (ratioStep 1021 2 (by decide) x0 x1 x2 (val_main_v14 (F := Ideal) x0 x3)) (Ideal.ofBits .f32 0x477F4000#32)) := by
  -- minus (the sum over the 64 × 1021 grid, begun at the zero word, divided by the count's word)
  rw [val_main_v59_apply, val_main_v58_apply, val_main_v57_apply, val_main_cst_10_apply, val_main_cst_11_apply]
  simp only [Ideal.hostNegf_def, Ideal.negf_def, Ideal.hostDivf_def, Ideal.ofBits_def, Ideal.ofBits_zero_f32, zero_add]
  rw [ratioStep, sum_idx2, sum_idx2]
  refine congrArg (fun s => -(Ideal.div s _)) ?_
  exact Finset.sum_congr rfl fun b _ => Finset.sum_congr rfl fun t _ => cell_apply x0 x1 x2 x3 b t

end Cert.RefSteps

end
-- ==== Proof.RefStep4.lean ====
/-
  Step 4 of the reference (rows 0 … 1019 of the masked context against rows 4 … 1023 of the base), read at its
  one index: minus the log-ratio score of the step, summed over the 64 × 1020 grid, over the count 64 · 1020.
-/
import proofs.«400458_j63127429316797_2_alg».proof.Proof.Gen.ReferenceIdeal.Read
import proofs.«400458_j63127429316797_2_alg».proof.Proof.CpcSpec
import proofs.«400458_j63127429316797_2_alg».proof.Proof.RefMask

noncomputable section

namespace Cert.RefSteps

open Idealize.ShloMosaic Idealize.ShloMosaic.ValueIdx Cert.ReferenceIdeal Cert.ReferenceIdeal.Read Cert.CpcSpec

/-- The context rows of step 4 (feature column 3 of the masked context, rows 0 … 1019), read at (b, t, e). -/
private theorem ctx_apply (x1 : Ctx) (x2 : Lens) (b : Fin 64) (t : Fin 1020) (e : Fin 128) :
    val_main_v61 (F := Ideal) x1 x2 (ix3 b t e) = ce x1 x2 3 b (lo 3 (by decide) t) e := by
  -- the slice takes rows 0 … 1019 at column 3, and flattening away the unit axis keeps (b, t, e) in place
  have hidx : idx_main_v60 (idx_main_v61 (ix3 b t e)) = ix4 b (lo 3 (by decide) t) e (3 : Fin 8) :=
    funext fun a => Fin.ext (by
      have hb := b.isLt; have ht := t.isLt; have he := e.isLt
      match a with
      | ⟨0, _⟩ => show ((b.val * 1020 + t.val) * 128 + e.val) / 130560 = b.val; omega
      | ⟨1, _⟩ => show ((b.val * 1020 + t.val) * 128 + e.val) / 128 % 1020 = t.val; omega
      | ⟨2, _⟩ => show ((b.val * 1020 + t.val) * 128 + e.val) / 1 % 128 = e.val; omega
      | ⟨3, _⟩ => rfl)
  rw [val_main_v61_apply, val_main_v60_apply, hidx, masked_ctx_apply]

/-- The positive pair of step 4 at (b, t, e): the masked context times the base four rows later. -/
private theorem pos_apply (x0 : Base) (x1 : Ctx) (x2 : Lens) (b : Fin 64) (t : Fin 1020) (e : Fin 128) :
    val_main_v63 (F := Ideal) x0 x1 x2 (idx_main_v64 (ix2 b t) e)
      = ce x1 x2 3 b (lo 3 (by decide) t) e * x0 (ix3 b (hi 3 (by decide) t) e) := by
  have hsum : idx_main_v64 (ix2 b t) e = ix3 b t e :=
    funext fun a => Fin.ext (by match a with | ⟨0, _⟩ => rfl | ⟨1, _⟩ => rfl | ⟨2, _⟩ => rfl)
  -- the base slice starts at row 4: its row t is row t + 4 of the base
  have hbase : idx_main_v62 (ix3 b t e) = ix3 b (hi 3 (by decide) t) e :=
    funext fun a => Fin.ext (by
      match a with
      | ⟨0, _⟩ => rfl
      | ⟨1, _⟩ => show 4 + t.val = t.val + 3 + 1; omega
      | ⟨2, _⟩ => rfl)
  rw [hsum, val_main_v63_apply, val_main_v62_apply, hbase, ctx_apply]
  rfl

/-- The score of (b, t) against the n'-th negative in step 4: the feature sum of masked context times that negative. -/
private theorem neg_apply (x0 : Base) (x1 : Ctx) (x2 : Lens) (x3 : (⟨2, ![64, 64]⟩ : Shape).Idx → BitVec 32)
    (b : Fin 64) (t : Fin 1020) (n' : Fin 64) :
    val_main_v66 (F := Ideal) x0 x1 x2 x3 (idx_main_v67 (ix2 b t) n')
      = ∑ e : Fin 128, ce x1 x2 3 b (lo 3 (by decide) t) e * val_main_v14 (F := Ideal) x0 x3 (ix3 b n' e) := by
  rw [val_main_v66_apply]
  refine Finset.sum_congr rfl fun e _ => ?_
  have hl : lidx_main_v66 (idx_main_v67 (ix2 b t) n') e = ix3 b t e :=
    funext fun a => Fin.ext (by match a with | ⟨0, _⟩ => rfl | ⟨1, _⟩ => rfl | ⟨2, _⟩ => rfl)
  have hr : ridx_main_v66 (idx_main_v67 (ix2 b t) n') e = ix3 b n' e :=
    funext fun a => Fin.ext (by match a with | ⟨0, _⟩ => rfl | ⟨1, _⟩ => rfl | ⟨2, _⟩ => rfl)
  rw [hl, hr, ctx_apply]

/-- One (b, t) of step 4: log (exp (positive score) / exp (sum of the negative scores)) is the spec's log-ratio. -/
private theorem cell_apply (x0 : Base) (x1 : Ctx) (x2 : Lens) (x3 : (⟨2, ![64, 64]⟩ : Shape).Idx → BitVec 32)
    (b : Fin 64) (t : Fin 1020) :
    val_main_v70 (F := Ideal) x0 x1 x2 x3 (ix2 b t)
      = logRatio 1020 3 (by decide) x0 x1 x2 (val_main_v14 (F := Ideal) x0 x3) b t := by
  rw [val_main_v70_apply, val_main_v69_apply, val_main_v65_apply, val_main_v64_apply, val_main_v68_apply,
    val_main_v67_apply, val_main_cst_12_apply, val_main_cst_13_apply]
  simp only [Ideal.hostUnary_log_def, Ideal.hostDivf_def, Ideal.hostUnary_exp_def, Ideal.ofBits_def,
    Ideal.ofBits_zero_f32, zero_add, pos_apply, neg_apply]
  rfl

/-- The reference's negated mean of step 4 is the spec's log-ratio reading over the count's word. -/
theorem step4_eq (x0 : Base) (x1 : Ctx) (x2 : Lens) (x3 : (⟨2, ![64, 64]⟩ : Shape).Idx → BitVec 32) (i : S_.Idx) :
    val_main_v73 (F := Ideal) x0 x1 x2 x3 i
      = -(Ideal.div (ratioStep 1020 3 (by decide) x0 x1 x2 (val_main_v14 (F := Ideal) x0 x3)) (Ideal.ofBits .f32 0x477F0000#32)) := by
  -- the negative of: the 64 × 1020 cells added up from the zero word, then divided by the count's word
  rw [val_main_v73_apply, val_main_v72_apply, val_main_v71_apply, val_main_cst_14_apply, val_main_cst_15_apply]
  simp only [Ideal.hostNegf_def, Ideal.negf_def, Ideal.hostDivf_def, Ideal.ofBits_def, Ideal.ofBits_zero_f32, zero_add]
  rw [ratioStep, sum_idx2, sum_idx2]
  refine congrArg (fun s => -(Ideal.div s _)) ?_
  exact Finset.sum_congr rfl fun b _ => Finset.sum_congr rfl fun t _ => cell_apply x0 x1 x2 x3 b t

end Cert.RefSteps

end
-- ==== Proof.RefStep5.lean ====
/-
  Step 5 of the reference (rows 0 … 1018 of the masked context against rows 5 … 1023 of the base), read at its
  one index: minus the log-ratio score of the step, summed over the 64 × 1019 grid, over the count 64 · 1019.
-/
import proofs.«400458_j63127429316797_2_alg».proof.Proof.Gen.ReferenceIdeal.Read
import proofs.«400458_j63127429316797_2_alg».proof.Proof.CpcSpec
import proofs.«400458_j63127429316797_2_alg».proof.Proof.RefMask

noncomputable section

namespace Cert.RefSteps

open Idealize.ShloMosaic Idealize.ShloMosaic.ValueIdx Cert.ReferenceIdeal Cert.ReferenceIdeal.Read Cert.CpcSpec

/-- Row t of the fifth step's context block at feature e is the masked context of offset 4 at row t. -/
private theorem ctx_apply (x1 : Ctx) (x2 : Lens) (b : Fin 64) (t : Fin 1019) (e : Fin 128) :
    val_main_v75 (F := Ideal) x1 x2 (ix3 b t e) = ce x1 x2 4 b (lo 4 (by decide) t) e := by
  -- flattening (b, t, e) row-major over 64 × 1019 × 128 and unflattening over 64 × 1019 × 128 × 1 gives back
  -- (b, t, e, 0); the slice keeps the first 1019 rows and picks column 4 of the last axis
  have hidx : idx_main_v74 (idx_main_v75 (ix3 b t e)) = ix4 b (lo 4 (by decide) t) e (4 : Fin 8) :=
    funext fun a => Fin.ext (by
      have hb := b.isLt; have ht := t.isLt; have he := e.isLt
      match a with
      | ⟨0, _⟩ => show ((b.val * 1019 + t.val) * 128 + e.val) / 130432 = b.val; omega
      | ⟨1, _⟩ => show ((b.val * 1019 + t.val) * 128 + e.val) / 128 % 1019 = t.val; omega
      | ⟨2, _⟩ => show ((b.val * 1019 + t.val) * 128 + e.val) / 1 % 128 = e.val; omega
      | ⟨3, _⟩ => rfl)
  rw [val_main_v75_apply, val_main_v74_apply, hidx, masked_ctx_apply]

/-- The matched pair at (b, t, e): the masked context at row t times the base five rows further on. -/
private theorem pos_apply (x0 : Base) (x1 : Ctx) (x2 : Lens) (b : Fin 64) (t : Fin 1019) (e : Fin 128) :
    val_main_v77 (F := Ideal) x0 x1 x2 (idx_main_v78 (ix2 b t) e)
      = ce x1 x2 4 b (lo 4 (by decide) t) e * x0 (ix3 b (hi 4 (by decide) t) e) := by
  have hsum : idx_main_v78 (ix2 b t) e = ix3 b t e :=
    funext fun a => Fin.ext (by match a with | ⟨0, _⟩ => rfl | ⟨1, _⟩ => rfl | ⟨2, _⟩ => rfl)
  -- the base block begins at row 5, so its row t is the base's row t + 4 + 1
  have hbase : idx_main_v76 (ix3 b t e) = ix3 b (hi 4 (by decide) t) e :=
    funext fun a => Fin.ext (by
      match a with
      | ⟨0, _⟩ => rfl
      | ⟨1, _⟩ => show 5 + t.val = t.val + 4 + 1; omega
      | ⟨2, _⟩ => rfl)
  rw [hsum, val_main_v77_apply, val_main_v76_apply, hbase, ctx_apply]
  rfl

/-- The inner product of the masked context's row t with the n'-th negative of batch row b. -/
private theorem neg_apply (x0 : Base) (x1 : Ctx) (x2 : Lens) (x3 : (⟨2, ![64, 64]⟩ : Shape).Idx → BitVec 32)
    (b : Fin 64) (t : Fin 1019) (n' : Fin 64) :
    val_main_v80 (F := Ideal) x0 x1 x2 x3 (idx_main_v81 (ix2 b t) n')
      = ∑ e : Fin 128, ce x1 x2 4 b (lo 4 (by decide) t) e * val_main_v14 (F := Ideal) x0 x3 (ix3 b n' e) := by
  rw [val_main_v80_apply]
  refine Finset.sum_congr rfl fun e _ => ?_
  -- the contraction runs over the feature axis: the left operand is read at (b, t, e), the right at (b, n', e)
  have hl : lidx_main_v80 (idx_main_v81 (ix2 b t) n') e = ix3 b t e :=
    funext fun a => Fin.ext (by match a with | ⟨0, _⟩ => rfl | ⟨1, _⟩ => rfl | ⟨2, _⟩ => rfl)
  have hr : ridx_main_v80 (idx_main_v81 (ix2 b t) n') e = ix3 b n' e :=
    funext fun a => Fin.ext (by match a with | ⟨0, _⟩ => rfl | ⟨1, _⟩ => rfl | ⟨2, _⟩ => rfl)
  rw [hl, hr, ctx_apply]

/-- At one (b, t) the step takes log (exp (matched score) / exp (summed negative scores)): the log-ratio of offset 4. -/
private theorem cell_apply (x0 : Base) (x1 : Ctx) (x2 : Lens) (x3 : (⟨2, ![64, 64]⟩ : Shape).Idx → BitVec 32)
    (b : Fin 64) (t : Fin 1019) :
    val_main_v84 (F := Ideal) x0 x1 x2 x3 (ix2 b t)
      = logRatio 1019 4 (by decide) x0 x1 x2 (val_main_v14 (F := Ideal) x0 x3) b t := by
  rw [val_main_v84_apply, val_main_v83_apply, val_main_v79_apply, val_main_v78_apply, val_main_v82_apply,
    val_main_v81_apply, val_main_cst_16_apply, val_main_cst_17_apply]
  simp only [Ideal.hostUnary_log_def, Ideal.hostDivf_def, Ideal.hostUnary_exp_def, Ideal.ofBits_def,
    Ideal.ofBits_zero_f32, zero_add, pos_apply, neg_apply]
  rfl

/-- The reference's negated mean of step 5 is the spec's log-ratio reading over the count's word. -/
theorem step5_eq (x0 : Base) (x1 : Ctx) (x2 : Lens) (x3 : (⟨2, ![64, 64]⟩ : Shape).Idx → BitVec 32) (i : S_.Idx) :
    val_main_v87 (F := Ideal) x0 x1 x2 x3 i
      = -(Ideal.div (ratioStep 1019 4 (by decide) x0 x1 x2 (val_main_v14 (F := Ideal) x0 x3)) (Ideal.ofBits .f32 0x477EC000#32)) := by
  rw [val_main_v87_apply, val_main_v86_apply, val_main_v85_apply, val_main_cst_18_apply, val_main_cst_19_apply]
  simp only [Ideal.hostNegf_def, Ideal.negf_def, Ideal.hostDivf_def, Ideal.ofBits_def, Ideal.ofBits_zero_f32, zero_add]
  -- both sides sum over the 64 × 1019 grid; split the grid into its two axes and compare cell by cell
  rw [ratioStep, sum_idx2, sum_idx2]
  refine congrArg (fun s => -(Ideal.div s _)) ?_
  exact Finset.sum_congr rfl fun b _ => Finset.sum_congr rfl fun t _ => cell_apply x0 x1 x2 x3 b t

end Cert.RefSteps

end
-- ==== Proof.RefStep6.lean ====
/-
  Step 6 of the reference (rows 0 … 1017 of the masked context against rows 6 … 1023 of the base), read at its
  one index: minus the log-ratio score of the step, summed over the 64 × 1018 grid, over the count 64 · 1018.
-/
import proofs.«400458_j63127429316797_2_alg».proof.Proof.Gen.ReferenceIdeal.Read
import proofs.«400458_j63127429316797_2_alg».proof.Proof.CpcSpec
import proofs.«400458_j63127429316797_2_alg».proof.Proof.RefMask

noncomputable section

namespace Cert.RefSteps

open Idealize.ShloMosaic Idealize.ShloMosaic.ValueIdx Cert.ReferenceIdeal Cert.ReferenceIdeal.Read Cert.CpcSpec

/-- The sixth step's context block, read at (b, t, e), is the masked context of offset 5 at row t. -/
private theorem ctx_apply (x1 : Ctx) (x2 : Lens) (b : Fin 64) (t : Fin 1018) (e : Fin 128) :
    val_main_v89 (F := Ideal) x1 x2 (ix3 b t e) = ce x1 x2 5 b (lo 5 (by decide) t) e := by
  -- the reshape only forgets a trailing axis of length one: the row-major position of (b, t, e) in 64 × 1018 × 128
  -- decodes to (b, t, e, 0), which the slice (first 1018 rows, column 5 of the last axis) sends to (b, t, e, 5)
  have hidx : idx_main_v88 (idx_main_v89 (ix3 b t e)) = ix4 b (lo 5 (by decide) t) e (5 : Fin 8) :=
    funext fun a => Fin.ext (by
      have hb := b.isLt; have ht := t.isLt; have he := e.isLt
      match a with
      | ⟨0, _⟩ => show ((b.val * 1018 + t.val) * 128 + e.val) / 130304 = b.val; omega
      | ⟨1, _⟩ => show ((b.val * 1018 + t.val) * 128 + e.val) / 128 % 1018 = t.val; omega
      | ⟨2, _⟩ => show ((b.val * 1018 + t.val) * 128 + e.val) / 1 % 128 = e.val; omega
      | ⟨3, _⟩ => rfl)
  rw [val_main_v89_apply, val_main_v88_apply, hidx, masked_ctx_apply]

/-- The matched pair at (b, t, e): the masked context at row t times the base six rows later. -/
private theorem pos_apply (x0 : Base) (x1 : Ctx) (x2 : Lens) (b : Fin 64) (t : Fin 1018) (e : Fin 128) :
    val_main_v91 (F := Ideal) x0 x1 x2 (idx_main_v92 (ix2 b t) e)
      = ce x1 x2 5 b (lo 5 (by decide) t) e * x0 (ix3 b (hi 5 (by decide) t) e) := by
  have hsum : idx_main_v92 (ix2 b t) e = ix3 b t e :=
    funext fun a => Fin.ext (by match a with | ⟨0, _⟩ => rfl | ⟨1, _⟩ => rfl | ⟨2, _⟩ => rfl)
  -- the base block begins at row 6, so its row t is the base's row t + 5 + 1
  have hbase : idx_main_v90 (ix3 b t e) = ix3 b (hi 5 (by decide) t) e :=
    funext fun a => Fin.ext (by
      match a with
      | ⟨0, _⟩ => rfl
      | ⟨1, _⟩ => show 6 + t.val = t.val + 5 + 1; omega
      | ⟨2, _⟩ => rfl)
  rw [hsum, val_main_v91_apply, val_main_v90_apply, hbase, ctx_apply]
  rfl

/-- The inner product over the features of the masked context's row t with the n'-th negative of batch row b. -/
private theorem neg_apply (x0 : Base) (x1 : Ctx) (x2 : Lens) (x3 : (⟨2, ![64, 64]⟩ : Shape).Idx → BitVec 32)
    (b : Fin 64) (t : Fin 1018) (n' : Fin 64) :
    val_main_v94 (F := Ideal) x0 x1 x2 x3 (idx_main_v95 (ix2 b t) n')
      = ∑ e : Fin 128, ce x1 x2 5 b (lo 5 (by decide) t) e * val_main_v14 (F := Ideal) x0 x3 (ix3 b n' e) := by
  rw [val_main_v94_apply]
  refine Finset.sum_congr rfl fun e _ => ?_
  -- batch axis shared, feature axis contracted: left operand at (b, t, e), right operand at (b, n', e)
  have hl : lidx_main_v94 (idx_main_v95 (ix2 b t) n') e = ix3 b t e :=
    funext fun a => Fin.ext (by match a with | ⟨0, _⟩ => rfl | ⟨1, _⟩ => rfl | ⟨2, _⟩ => rfl)
  have hr : ridx_main_v94 (idx_main_v95 (ix2 b t) n') e = ix3 b n' e :=
    funext fun a => Fin.ext (by match a with | ⟨0, _⟩ => rfl | ⟨1, _⟩ => rfl | ⟨2, _⟩ => rfl)
  rw [hl, hr, ctx_apply]

/-- At one (b, t) the step computes log (exp (matched score) / exp (sum of the negative scores)): the log-ratio of offset 5. -/
private theorem cell_apply (x0 : Base) (x1 : Ctx) (x2 : Lens) (x3 : (⟨2, ![64, 64]⟩ : Shape).Idx → BitVec 32)
    (b : Fin 64) (t : Fin 1018) :
    val_main_v98 (F := Ideal) x0 x1 x2 x3 (ix2 b t)
      = logRatio 1018 5 (by decide) x0 x1 x2 (val_main_v14 (F := Ideal) x0 x3) b t := by
  rw [val_main_v98_apply, val_main_v97_apply, val_main_v93_apply, val_main_v92_apply, val_main_v96_apply,
    val_main_v95_apply, val_main_cst_20_apply, val_main_cst_21_apply]
  simp only [Ideal.hostUnary_log_def, Ideal.hostDivf_def, Ideal.hostUnary_exp_def, Ideal.ofBits_def,
    Ideal.ofBits_zero_f32, zero_add, pos_apply, neg_apply]
  rfl

/-- The reference's negated mean of step 6 is the spec's log-ratio reading over the count's word. -/
theorem step6_eq (x0 : Base) (x1 : Ctx) (x2 : Lens) (x3 : (⟨2, ![64, 64]⟩ : Shape).Idx → BitVec 32) (i : S_.Idx) :
    val_main_v101 (F := Ideal) x0 x1 x2 x3 i
      = -(Ideal.div (ratioStep 1018 5 (by decide) x0 x1 x2 (val_main_v14 (F := Ideal) x0 x3)) (Ideal.ofBits .f32 0x477E8000#32)) := by
  rw [val_main_v101_apply, val_main_v100_apply, val_main_v99_apply, val_main_cst_22_apply, val_main_cst_23_apply]
  simp only [Ideal.hostNegf_def, Ideal.negf_def, Ideal.hostDivf_def, Ideal.ofBits_def, Ideal.ofBits_zero_f32, zero_add]
  -- the total over the 64 × 1018 grid is a double sum over b and t on both sides; the cells agree one by one
  rw [ratioStep, sum_idx2, sum_idx2]
  refine congrArg (fun s => -(Ideal.div s _)) ?_
  exact Finset.sum_congr rfl fun b _ => Finset.sum_congr rfl fun t _ => cell_apply x0 x1 x2 x3 b t

end Cert.RefSteps

end
-- ==== Proof.RefStep7.lean ====
/-
  Step 7 of the reference (rows 0 … 1016 of the masked context against rows 7 … 1023 of the base), read at its
  one index: minus the log-ratio score of the step, summed over the 64 × 1017 grid, over the count 64 · 1017.
-/
import proofs.«400458_j63127429316797_2_alg».proof.Proof.Gen.ReferenceIdeal.Read
import proofs.«400458_j63127429316797_2_alg».proof.Proof.CpcSpec
import proofs.«400458_j63127429316797_2_alg».proof.Proof.RefMask

noncomputable section

namespace Cert.RefSteps

open Idealize.ShloMosaic Idealize.ShloMosaic.ValueIdx Cert.ReferenceIdeal Cert.ReferenceIdeal.Read Cert.CpcSpec

/-- The seventh step's context rows, read at (b, t, e): the masked context of predictor 6 at row t. -/
private theorem ctx7_apply (x1 : Ctx) (x2 : Lens) (b : Fin 64) (t : Fin 1017) (e : Fin 128) :
    val_main_v103 (F := Ideal) x1 x2 (ix3 b t e) = ce x1 x2 6 b (lo 6 (by decide) t) e := by
  -- the reshape forgets the unit axis of a slice that keeps rows 0 … 1016 and the single column 6 of the last axis:
  -- the flat position (b · 1017 + t) · 128 + e splits back into (b, t, e), and column 6 + 0 is column 6
  have hidx : idx_main_v102 (idx_main_v103 (ix3 b t e)) = ix4 b (lo 6 (by decide) t) e (6 : Fin 8) :=
    funext fun a => Fin.ext (by
      have hb := b.isLt; have ht := t.isLt; have he := e.isLt
      match a with
      | ⟨0, _⟩ => show ((b.val * 1017 + t.val) * 128 + e.val) / 130176 = b.val; omega
      | ⟨1, _⟩ => show ((b.val * 1017 + t.val) * 128 + e.val) / 128 % 1017 = t.val; omega
      | ⟨2, _⟩ => show ((b.val * 1017 + t.val) * 128 + e.val) / 1 % 128 = e.val; omega
      | ⟨3, _⟩ => rfl)
  rw [val_main_v103_apply, val_main_v102_apply, hidx, masked_ctx_apply]

/-- The positive pair's product at (b, t, e): the masked context times the base seven rows later. -/
private theorem pos7_apply (x0 : Base) (x1 : Ctx) (x2 : Lens) (b : Fin 64) (t : Fin 1017) (e : Fin 128) :
    val_main_v105 (F := Ideal) x0 x1 x2 (idx_main_v106 (ix2 b t) e)
      = ce x1 x2 6 b (lo 6 (by decide) t) e * x0 (ix3 b (hi 6 (by decide) t) e) := by
  -- the feature sum's e-th summand sits at (b, t, e)
  have hsum : idx_main_v106 (ix2 b t) e = ix3 b t e :=
    funext fun a => Fin.ext (by match a with | ⟨0, _⟩ => rfl | ⟨1, _⟩ => rfl | ⟨2, _⟩ => rfl)
  -- the base slice starts at row 7: row t of the slice is row t + 6 + 1 of the base
  have hbase : idx_main_v104 (ix3 b t e) = ix3 b (hi 6 (by decide) t) e :=
    funext fun a => Fin.ext (by
      match a with
      | ⟨0, _⟩ => rfl
      | ⟨1, _⟩ => show 7 + t.val = t.val + 6 + 1; omega
      | ⟨2, _⟩ => rfl)
  rw [hsum, val_main_v105_apply, val_main_v104_apply, hbase, ctx7_apply]
  rfl

/-- The score against the n'-th negative at (b, t): the masked context's row contracted with that negative over the features. -/
private theorem neg7_apply (x0 : Base) (x1 : Ctx) (x2 : Lens) (x3 : (⟨2, ![64, 64]⟩ : Shape).Idx → BitVec 32)
    (b : Fin 64) (t : Fin 1017) (n' : Fin 64) :
    val_main_v108 (F := Ideal) x0 x1 x2 x3 (idx_main_v109 (ix2 b t) n')
      = ∑ e : Fin 128, ce x1 x2 6 b (lo 6 (by decide) t) e * val_main_v14 (F := Ideal) x0 x3 (ix3 b n' e) := by
  rw [val_main_v108_apply]
  refine Finset.sum_congr rfl fun e _ => ?_
  -- the contraction's left factor is read at (b, t, e), its right factor at (b, n', e)
  have hl : lidx_main_v108 (idx_main_v109 (ix2 b t) n') e = ix3 b t e :=
    funext fun a => Fin.ext (by match a with | ⟨0, _⟩ => rfl | ⟨1, _⟩ => rfl | ⟨2, _⟩ => rfl)
  have hr : ridx_main_v108 (idx_main_v109 (ix2 b t) n') e = ix3 b n' e :=
    funext fun a => Fin.ext (by match a with | ⟨0, _⟩ => rfl | ⟨1, _⟩ => rfl | ⟨2, _⟩ => rfl)
  rw [hl, hr, ctx7_apply]

/-- One (b, t) of the step: log (exp (positive score) / exp (sum of the negative scores)) is the spec's log-ratio. -/
private theorem cell7_apply (x0 : Base) (x1 : Ctx) (x2 : Lens) (x3 : (⟨2, ![64, 64]⟩ : Shape).Idx → BitVec 32)
    (b : Fin 64) (t : Fin 1017) :
    val_main_v112 (F := Ideal) x0 x1 x2 x3 (ix2 b t)
      = logRatio 1017 6 (by decide) x0 x1 x2 (val_main_v14 (F := Ideal) x0 x3) b t := by
  rw [val_main_v112_apply, val_main_v111_apply, val_main_v107_apply, val_main_v106_apply, val_main_v110_apply,
    val_main_v109_apply, val_main_cst_24_apply, val_main_cst_25_apply]
  -- both sums start from the zero word, which adds nothing
  simp only [Ideal.hostUnary_log_def, Ideal.hostDivf_def, Ideal.hostUnary_exp_def, Ideal.ofBits_def,
    Ideal.ofBits_zero_f32, zero_add, pos7_apply, neg7_apply]
  rfl

/-- The reference's negated mean of step 7 is the spec's log-ratio reading over the count's word. -/
theorem step7_eq (x0 : Base) (x1 : Ctx) (x2 : Lens) (x3 : (⟨2, ![64, 64]⟩ : Shape).Idx → BitVec 32) (i : S_.Idx) :
    val_main_v115 (F := Ideal) x0 x1 x2 x3 i
      = -(Ideal.div (ratioStep 1017 6 (by decide) x0 x1 x2 (val_main_v14 (F := Ideal) x0 x3)) (Ideal.ofBits .f32 0x477E4000#32)) := by
  rw [val_main_v115_apply, val_main_v114_apply, val_main_v113_apply, val_main_cst_26_apply, val_main_cst_27_apply]
  simp only [Ideal.hostNegf_def, Ideal.negf_def, Ideal.hostDivf_def, Ideal.ofBits_def, Ideal.ofBits_zero_f32, zero_add]
  -- the total over the 64 × 1017 grid is the double sum over b and t, cell by cell the spec's log-ratio
  rw [ratioStep, sum_idx2, sum_idx2]
  refine congrArg (fun s => -(Ideal.div s _)) ?_
  exact Finset.sum_congr rfl fun b _ => Finset.sum_congr rfl fun t _ => cell7_apply x0 x1 x2 x3 b t

end Cert.RefSteps

end
-- ==== Proof.RefStep8.lean ====
/-
  Step 8 of the reference (rows 0 … 1015 of the masked context against rows 8 … 1023 of the base), read at its
  one index: minus the log-ratio score of the step, summed over the 64 × 1016 grid, over the count 64 · 1016.
-/
import proofs.«400458_j63127429316797_2_alg».proof.Proof.Gen.ReferenceIdeal.Read
import proofs.«400458_j63127429316797_2_alg».proof.Proof.CpcSpec
import proofs.«400458_j63127429316797_2_alg».proof.Proof.RefMask

noncomputable section

namespace Cert.RefSteps

open Idealize.ShloMosaic Idealize.ShloMosaic.ValueIdx Cert.ReferenceIdeal Cert.ReferenceIdeal.Read Cert.CpcSpec

/-- The eighth (last) step's context rows, read at (b, t, e): the masked context of predictor 7 at row t. -/
private theorem ctx8_apply (x1 : Ctx) (x2 : Lens) (b : Fin 64) (t : Fin 1016) (e : Fin 128) :
    val_main_v117 (F := Ideal) x1 x2 (ix3 b t e) = ce x1 x2 7 b (lo 7 (by decide) t) e := by
  -- the slice keeps rows 0 … 1015 and only the last column, 7, of the predictor axis; the reshape then drops that
  -- unit axis: position (b · 1016 + t) · 128 + e is again (b, t, e), and column 7 + 0 is column 7
  have hidx : idx_main_v116 (idx_main_v117 (ix3 b t e)) = ix4 b (lo 7 (by decide) t) e (7 : Fin 8) :=
    funext fun a => Fin.ext (by
      have hb := b.isLt; have ht := t.isLt; have he := e.isLt
      match a with
      | ⟨0, _⟩ => show ((b.val * 1016 + t.val) * 128 + e.val) / 130048 = b.val; omega
      | ⟨1, _⟩ => show ((b.val * 1016 + t.val) * 128 + e.val) / 128 % 1016 = t.val; omega
      | ⟨2, _⟩ => show ((b.val * 1016 + t.val) * 128 + e.val) / 1 % 128 = e.val; omega
      | ⟨3, _⟩ => rfl)
  rw [val_main_v117_apply, val_main_v116_apply, hidx, masked_ctx_apply]

/-- The positive pair's product at (b, t, e): the masked context times the base eight rows later. -/
private theorem pos8_apply (x0 : Base) (x1 : Ctx) (x2 : Lens) (b : Fin 64) (t : Fin 1016) (e : Fin 128) :
    val_main_v119 (F := Ideal) x0 x1 x2 (idx_main_v120 (ix2 b t) e)
      = ce x1 x2 7 b (lo 7 (by decide) t) e * x0 (ix3 b (hi 7 (by decide) t) e) := by
  -- the e-th term of the sum over features is the product's entry (b, t, e)
  have hsum : idx_main_v120 (ix2 b t) e = ix3 b t e :=
    funext fun a => Fin.ext (by match a with | ⟨0, _⟩ => rfl | ⟨1, _⟩ => rfl | ⟨2, _⟩ => rfl)
  -- the base slice starts at row 8: row t of the slice is row t + 7 + 1 of the base
  have hbase : idx_main_v118 (ix3 b t e) = ix3 b (hi 7 (by decide) t) e :=
    funext fun a => Fin.ext (by
      match a with
      | ⟨0, _⟩ => rfl
      | ⟨1, _⟩ => show 8 + t.val = t.val + 7 + 1; omega
      | ⟨2, _⟩ => rfl)
  rw [hsum, val_main_v119_apply, val_main_v118_apply, hbase, ctx8_apply]
  rfl

/-- The score against the n'-th negative at (b, t): the feature-wise contraction of the masked context's row with that negative. -/
private theorem neg8_apply (x0 : Base) (x1 : Ctx) (x2 : Lens) (x3 : (⟨2, ![64, 64]⟩ : Shape).Idx → BitVec 32)
    (b : Fin 64) (t : Fin 1016) (n' : Fin 64) :
    val_main_v122 (F := Ideal) x0 x1 x2 x3 (idx_main_v123 (ix2 b t) n')
      = ∑ e : Fin 128, ce x1 x2 7 b (lo 7 (by decide) t) e * val_main_v14 (F := Ideal) x0 x3 (ix3 b n' e) := by
  rw [val_main_v122_apply]
  refine Finset.sum_congr rfl fun e _ => ?_
  -- batch b on both sides; the context supplies row t, the negatives supply row n'; e is contracted
  have hl : lidx_main_v122 (idx_main_v123 (ix2 b t) n') e = ix3 b t e :=
    funext fun a => Fin.ext (by match a with | ⟨0, _⟩ => rfl | ⟨1, _⟩ => rfl | ⟨2, _⟩ => rfl)
  have hr : ridx_main_v122 (idx_main_v123 (ix2 b t) n') e = ix3 b n' e :=
    funext fun a => Fin.ext (by match a with | ⟨0, _⟩ => rfl | ⟨1, _⟩ => rfl | ⟨2, _⟩ => rfl)
  rw [hl, hr, ctx8_apply]

/-- One (b, t) of the step: the logarithm of exp (positive score) over exp (summed negative scores) is the spec's log-ratio. -/
private theorem cell8_apply (x0 : Base) (x1 : Ctx) (x2 : Lens) (x3 : (⟨2, ![64, 64]⟩ : Shape).Idx → BitVec 32)
    (b : Fin 64) (t : Fin 1016) :
    val_main_v126 (F := Ideal) x0 x1 x2 x3 (ix2 b t)
      = logRatio 1016 7 (by decide) x0 x1 x2 (val_main_v14 (F := Ideal) x0 x3) b t := by
  rw [val_main_v126_apply, val_main_v125_apply, val_main_v121_apply, val_main_v120_apply, val_main_v124_apply,
    val_main_v123_apply, val_main_cst_28_apply, val_main_cst_29_apply]
  -- the two inner sums are seeded with the zero word, a neutral summand
  simp only [Ideal.hostUnary_log_def, Ideal.hostDivf_def, Ideal.hostUnary_exp_def, Ideal.ofBits_def,
    Ideal.ofBits_zero_f32, zero_add, pos8_apply, neg8_apply]
  rfl

/-- The reference's negated mean of step 8 is the spec's log-ratio reading over the count's word. -/
theorem step8_eq (x0 : Base) (x1 : Ctx) (x2 : Lens) (x3 : (⟨2, ![64, 64]⟩ : Shape).Idx → BitVec 32) (i : S_.Idx) :
    val_main_v129 (F := Ideal) x0 x1 x2 x3 i
      = -(Ideal.div (ratioStep 1016 7 (by decide) x0 x1 x2 (val_main_v14 (F := Ideal) x0 x3)) (Ideal.ofBits .f32 0x477E0000#32)) := by
  rw [val_main_v129_apply, val_main_v128_apply, val_main_v127_apply, val_main_cst_30_apply, val_main_cst_31_apply]
  simp only [Ideal.hostNegf_def, Ideal.negf_def, Ideal.hostDivf_def, Ideal.ofBits_def, Ideal.ofBits_zero_f32, zero_add]
  -- the grand total over the 64 × 1016 grid unfolds into the sum over b of the sum over t, and each cell is the spec's
  rw [ratioStep, sum_idx2, sum_idx2]
  refine congrArg (fun s => -(Ideal.div s _)) ?_
  exact Finset.sum_congr rfl fun b _ => Finset.sum_congr rfl fun t _ => cell8_apply x0 x1 x2 x3 b t

end Cert.RefSteps

end
-- ==== Proof.RefFinal.lean ====
/-
  The reference's result: the eight step losses stacked into a vector of eight, summed, over the word of 8.0 —
  the spec's loss of the log-ratio scores.
-/
import proofs.«400458_j63127429316797_2_alg».proof.Proof.Gen.ReferenceIdeal.Read
import proofs.«400458_j63127429316797_2_alg».proof.Proof.CpcLoss
import proofs.«400458_j63127429316797_2_alg».proof.Proof.RefStep1
import proofs.«400458_j63127429316797_2_alg».proof.Proof.RefStep2
import proofs.«400458_j63127429316797_2_alg».proof.Proof.RefStep3
import proofs.«400458_j63127429316797_2_alg».proof.Proof.RefStep4
import proofs.«400458_j63127429316797_2_alg».proof.Proof.RefStep5
import proofs.«400458_j63127429316797_2_alg».proof.Proof.RefStep6
import proofs.«400458_j63127429316797_2_alg».proof.Proof.RefStep7
import proofs.«400458_j63127429316797_2_alg».proof.Proof.RefStep8

noncomputable section

namespace Cert.RefSteps

open Idealize.ShloMosaic Idealize.ShloMosaic.ValueIdx Cert.ReferenceIdeal Cert.ReferenceIdeal.Read Cert.CpcSpec

/-- A rank-1 index set of extent 8 is its coordinate range. -/
private def idx8 : S8.Idx ≃ Fin 8 where
  toFun i := i 0
  invFun := ix1
  left_inv i := (eq_ix1 i).symm
  right_inv _ := rfl

/-- A sum over the indices of a vector of eight is the sum over its eight coordinates. -/
private theorem sum_S8 (f : S8.Idx → EReal) : ∑ j, f j = ∑ k : Fin 8, f (ix1 k) := by
  rw [← Equiv.sum_comp idx8.symm f]
  rfl

/-- Eight one-element vectors joined along their axis: element k of the result is the k-th vector's element. -/
private theorem concat8 (y0 y1 y2 y3 y4 y5 y6 y7 : S1.Idx → EReal)
    (h : Shape.Concatenates (([⟨S1, y0⟩, ⟨S1, y1⟩, ⟨S1, y2⟩, ⟨S1, y3⟩, ⟨S1, y4⟩, ⟨S1, y5⟩, ⟨S1, y6⟩, ⟨S1, y7⟩] :
      List ((s : Shape) × (s.Idx → EReal))).map (·.1)) S8 0) (k : Fin 8) :
    concatenate S8 0 [⟨S1, y0⟩, ⟨S1, y1⟩, ⟨S1, y2⟩, ⟨S1, y3⟩, ⟨S1, y4⟩, ⟨S1, y5⟩, ⟨S1, y6⟩, ⟨S1, y7⟩] h (ix1 k)
      = (![y0, y1, y2, y3, y4, y5, y6, y7] k) (ix1 0) := by
  have hoff : ∀ b : Fin S1.rank, b.cast (rfl : S1.rank = S8.rank) ≠ (0 : Fin S8.rank) → ((ix1 (0 : Fin 1)) b).val = ((ix1 k) (b.cast rfl)).val :=
    fun b hb => absurd (Subsingleton.elim _ _) hb
  fin_cases k
  · exact concatenate_apply_piece 0 _ h _ 0 (by simp) S1 y0 rfl rfl 0 rfl (ix1 0) hoff rfl
  · exact concatenate_apply_piece 0 _ h _ 1 (by simp) S1 y1 rfl rfl 1 rfl (ix1 0) hoff rfl
  · exact concatenate_apply_piece 0 _ h _ 2 (by simp) S1 y2 rfl rfl 2 rfl (ix1 0) hoff rfl
  · exact concatenate_apply_piece 0 _ h _ 3 (by simp) S1 y3 rfl rfl 3 rfl (ix1 0) hoff rfl
  · exact concatenate_apply_piece 0 _ h _ 4 (by simp) S1 y4 rfl rfl 4 rfl (ix1 0) hoff rfl
  · exact concatenate_apply_piece 0 _ h _ 5 (by simp) S1 y5 rfl rfl 5 rfl (ix1 0) hoff rfl
  · exact concatenate_apply_piece 0 _ h _ 6 (by simp) S1 y6 rfl rfl 6 rfl (ix1 0) hoff rfl
  · exact concatenate_apply_piece 0 _ h _ 7 (by simp) S1 y7 rfl rfl 7 rfl (ix1 0) hoff rfl

/-- The reference's result is the loss of the eight log-ratio scores. -/
theorem result_eq (x0 : Base) (x1 : Ctx) (x2 : Lens) (x3 : (⟨2, ![64, 64]⟩ : Shape).Idx → BitVec 32) (i : S_.Idx) :
    val_main_v140 (F := Ideal) x0 x1 x2 x3 i = loss (ratioSteps x0 x1 x2 (val_main_v14 (F := Ideal) x0 x3)) := by
  -- element k of the vector of eight is the k-th one-element vector's element
  have hv : ∀ k : Fin 8, val_main_v138 (F := Ideal) x0 x1 x2 x3 (ix1 k)
      = (![val_main_v130 (F := Ideal) x0 x1 x2 x3, val_main_v131 (F := Ideal) x0 x1 x2 x3,
           val_main_v132 (F := Ideal) x0 x1 x2 x3, val_main_v133 (F := Ideal) x0 x1 x2 x3,
           val_main_v134 (F := Ideal) x0 x1 x2 x3, val_main_v135 (F := Ideal) x0 x1 x2 x3,
           val_main_v136 (F := Ideal) x0 x1 x2 x3, val_main_v137 (F := Ideal) x0 x1 x2 x3] k) (ix1 0) := fun k => by
    unfold val_main_v138
    exact concat8 _ _ _ _ _ _ _ _ _ k
  -- the last division, the sum of the vector of eight from the zero word, over the word of 8.0
  rw [val_main_v140_apply, val_main_v139_apply, val_main_cst_32_apply, val_main_cst_33_apply, sum_S8]
  simp only [Ideal.hostDivf_def, Ideal.ofBits_def, Ideal.ofBits_zero_f32, zero_add]
  rw [loss, Fin.sum_univ_eight, Fin.sum_univ_eight]
  simp only [hv, ratioSteps, cntWord, stepLoss, Matrix.cons_val]
  -- each one-element vector holds its step's scalar, the step's loss
  rw [val_main_v130_apply, val_main_v131_apply, val_main_v132_apply, val_main_v133_apply, val_main_v134_apply,
    val_main_v135_apply, val_main_v136_apply, val_main_v137_apply, step1_eq, step2_eq, step3_eq, step4_eq, step5_eq,
    step6_eq, step7_eq, step8_eq]

end Cert.RefSteps

end
-- ==== Proof.LibGatherRows.lean ====
/-
  A row lookup read at an index.

  What `x[idx]` of a table `x : [N, K]` at an integer array `idx : [R, C]` lowers to is a `stablehlo.gather` of
  the table at the start indices `[R, C, 1]` (one index vector of length one per position) with offset axis 2,
  collapsed axis 0, start index map `[0]`, index vector axis 2 and slices `[1, K]`: result element `(p, q, j)`
  is column `j` of the row whose number is the start index `idx[p, q, 0]` read as a signed integer and clamped
  into `[0, N − 1]`.
-/
import Idealize.ShloMosaic.Lib.ValueIdx

noncomputable section

namespace Cert.PosEnc.GatherRows

open Idealize.ShloMosaic Idealize.ShloMosaic.ValueIdx

variable {α : Type}

/-- Those dimension numbers for a table `[N, K]`, start indices `[R, C, 1]` and result `[R, C, K]`; their
    conditions `wf` are decided on a program's literal shapes. -/
abbrev rowsDims (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- THE ROW LOOKUP READ AT `(p, q, j)`: the table at column `j` of the row the start index `idx[p, q, 0]` names,
    read signed and clamped into `[0, N − 1]`. On the row axis the operand coordinate is the clamped start alone
    (the axis is collapsed, so it has no offset, and there are no batching axes); on the column axis the start
    is `0` (the start index map does not name it) and the offset is the result's coordinate on its one offset
    axis. -/
theorem gather_rows_apply {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (p : Fin R) (q : Fin C) (j : Fin K) :
    Host.gather (rowsDims N K R C wf) x idx (ix3 p q j)
      = x (ix2 ⟨min (idx (ix3 p q (0 : Fin 1))).toInt.toNat (N - 1), by omega⟩ j) := by
  unfold Host.gather
  congr 1
  funext a
  refine Fin.ext ?_
  match a with
  | ⟨0, _⟩ =>
    show (rowsDims N K R C wf).start (ix3 p q j) idx 0 + (rowsDims N K R C wf).batchCoord (ix3 p q j) 0
        + (rowsDims N K R C wf).offCoord (ix3 p q j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N K R C wf).startIndexMap from List.mem_singleton.mpr rfl)]
    have hsi : (rowsDims N K R C wf).siIdx (ix3 p q j) ⟨List.idxOf (0 : Fin 2) (rowsDims N K R C wf).startIndexMap,
        List.idxOf_lt_length_iff.2 (List.mem_singleton.mpr rfl)⟩ = ix3 p q (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N K R C wf).start (ix3 p q j) idx 1 + (rowsDims N K R C wf).batchCoord (ix3 p q j) 1
        + (rowsDims N K R C wf).offCoord (ix3 p q j) 1 = j.val
    have hk : (1 : Fin 2) ∈ (rowsDims N K R C wf).sKept := by
      rw [GatherDims.mem_sKept]; exact ⟨(by decide : (1 : Fin 2) ∉ [(0 : Fin 2)]), List.not_mem_nil⟩
    rw [GatherDims.batchCoord_eq_zero _ _ _ List.not_mem_nil]
    unfold GatherDims.start GatherDims.offCoord
    rw [dif_neg (show (1 : Fin 2) ∉ (rowsDims N K R C wf).startIndexMap from (by decide : (1 : Fin 2) ∉ [(0 : Fin 2)])), dif_pos hk]
    simp only [Nat.add_zero, Nat.zero_add]
    rfl

end Cert.PosEnc.GatherRows

end
-- ==== Proof.Reals.lean ====
/-
  Under the precondition every entry of the two float inputs is a real number, and the gathered negatives,
  being entries of the first input, are real numbers too.

  The precondition compares the absolute value of every entry of each float input with +∞ and takes the
  conjunction over all entries.  On the extended reals |x| < ⊤ excludes x = ⊥ and x = ⊤, so x is a real number.
  The negatives are a row lookup into the first input reshaped to a table: each gathered entry is an entry of
  that table, hence an entry of the first input.
-/
import proofs.«400458_j63127429316797_2_alg».proof.Pre_finite_inputs
import proofs.«400458_j63127429316797_2_alg».proof.Proof.Gen.ReferenceIdeal.Read
import proofs.«400458_j63127429316797_2_alg».proof.Proof.CpcSpec
import proofs.«400458_j63127429316797_2_alg».proof.Proof.LibGatherRows
import Idealize.ShloMosaic.Lib.ReduceAll

noncomputable section

namespace Cert.Reals

open Idealize.ShloMosaic Idealize.ShloMosaic.ValueIdx Cert.CpcSpec

/-- The pattern of +∞ denotes the top of the extended reals. -/
private theorem inf_pattern : Ideal.ofBits .f32 0x7F800000#32 = (⊤ : EReal) := by
  simp [Ideal.ofBits, Ideal.ieee]

/-- An extended real whose absolute value compares below +∞ is a real number. -/
private theorem real_of_abs_lt (x : Ideal .f32)
    (h : FloatOps.cmpf .olt (FloatOps.hostAbsf x) (FloatOps.ofBits (F := Ideal) .f32 0x7F800000#32) = 1#1) :
    ∃ r : ℝ, x = (r : EReal) := by
  have h1 : Ideal.cmp .olt (max (x : EReal) (-(x : EReal))) (Ideal.ofBits .f32 0x7F800000#32) = 1#1 := h
  rw [inf_pattern] at h1
  induction x using EReal.rec with
  | bot => exact absurd h1 (by simp [Ideal.cmp])
  | top => exact absurd h1 (by simp [Ideal.cmp])
  | coe r => exact ⟨r, rfl⟩

private instance : Subsingleton Cert.Pre_finite_inputs.S_.Idx := ⟨fun a b => funext fun d => d.elim0⟩

theorem allReal_of_finite [Cert.Pre_finite_inputs.Facts] (x0 : Base) (x1 : Ctx) (x2 : Lens) (x3 : (⟨2, ![64, 64]⟩ : Shape).Idx → BitVec 32)
    (h : Cert.Pre_finite_inputs.fn (F := Ideal) x0 x1 x2 x3 = fun _ => 1#1) : AllReal x0 ∧ AllReal x1 := by
  have h' := congrFun h ValueIdx.ix0
  dsimp only [Cert.Pre_finite_inputs.fn] at h'
  obtain ⟨ha, hb⟩ := IntOp.andi_eq_one.1 h'
  refine ⟨fun i => ?_, fun i => ?_⟩
  · exact real_of_abs_lt (x0 i) (Host.reduce_andi_all _ _ _ _ _ ha i)
  · exact real_of_abs_lt (x1 i) (Host.reduce_andi_all _ _ _ _ _ hb i)

theorem negs_real [Cert.ReferenceIdeal.Facts] (x0 : Base) (x3 : (⟨2, ![64, 64]⟩ : Shape).Idx → BitVec 32) (h0 : AllReal x0) :
    AllReal (Cert.ReferenceIdeal.Read.val_main_v14 (F := Ideal) x0 x3) := by
  -- the program's gather is the row lookup: a gathered entry is an entry of the reshaped table,
  -- and the reshaped table's entries are entries of the first input
  have hd : Cert.ReferenceIdeal.gather_S65536x128_S64x64x1_S64x64x128_2_0_n_n_0_2_1128
      = Cert.PosEnc.GatherRows.rowsDims 65536 128 64 64
          Cert.ReferenceIdeal.Facts₀.gather_S65536x128_S64x64x1_S64x64x128_2_0_n_n_0_2_1128_wf := rfl
  have key : ∀ (p : Fin 64) (q : Fin 64) (j : Fin 128),
      ∃ r : ℝ, Cert.ReferenceIdeal.Read.val_main_v14 (F := Ideal) x0 x3 (ix3 p q j) = (r : EReal) := by
    intro p q j
    unfold Cert.ReferenceIdeal.Read.val_main_v14
    rw [hd, Cert.PosEnc.GatherRows.gather_rows_apply (N := 65536) (K := 128) (R := 64) (C := 64) (by decide),
      Cert.ReferenceIdeal.Read.val_main_v7_apply]
    exact h0 _
  intro i
  rw [eq_ix3 i]
  exact key (i 0) (i 1) (i 2)

end Cert.Reals

end
-- ==== Proof.lean ====
/-
  The certificate: a contrastive-predictive-coding loss computed by a Pallas kernel against its jnp reference, equal
  over the extended reals whenever the two float inputs are finite.

  The reference scores every (batch row b, time t) of step k by `log (exp (ce · base[t+k+1]) / exp (Σ_n ce · neg_n))` and
  averages; the kernel first subtracts the summed negatives from the base and scores a batch row by
  `Σ_t Σ_e ce · (base[t+k+1] − Σ_n neg_n)`, one grid point per batch row, and the host sums over the batch, divides by the
  same counts, negates and averages.  For real numbers `log (exp A / exp B) = A − B` and the difference distributes
  through the finite sums (CpcSpec, CpcLoss), and the precondition makes every entry — the gathered negatives
  included, whichever rows the indices pick — a real number (Reals).  The kernel's side is read off its frame run
  (KerStep, KerPoint, KerHost, KerArray, KerTail, KerFinal), the reference's off its run, operation by operation
  (RefMask, RefStep1 … RefStep8, RefFinal).  The kernel's index maps never read the prefetched lengths, so the
  pipeline's side condition on the table is trivially true; the idealization rewrote nothing, so `preserves` is trivial.
-/
import proofs.«400458_j63127429316797_2_alg».proof.Defs
import proofs.«400458_j63127429316797_2_alg».proof.Proof.Gen.Kernel
import proofs.«400458_j63127429316797_2_alg».proof.Proof.Gen.Kernel.Skeleton
import proofs.«400458_j63127429316797_2_alg».proof.Proof.Gen.Kernel.Launch
import proofs.«400458_j63127429316797_2_alg».proof.Proof.Gen.Kernel.Points
import proofs.«400458_j63127429316797_2_alg».proof.Proof.Gen.Kernel.Frame
import proofs.«400458_j63127429316797_2_alg».proof.Proof.Gen.KernelIdeal
import proofs.«400458_j63127429316797_2_alg».proof.Proof.Gen.KernelIdeal.Skeleton
import proofs.«400458_j63127429316797_2_alg».proof.Proof.Gen.KernelIdeal.Launch
import proofs.«400458_j63127429316797_2_alg».proof.Proof.Gen.KernelIdeal.Points
import proofs.«400458_j63127429316797_2_alg».proof.Proof.Gen.KernelIdeal.Frame
import proofs.«400458_j63127429316797_2_alg».proof.Proof.Gen.ReferenceIdeal
import proofs.«400458_j63127429316797_2_alg».proof.Proof.Gen.Pre_finite_inputs
import proofs.«400458_j63127429316797_2_alg».proof.Proof.Gen.ReferenceIdeal.Run
import proofs.«400458_j63127429316797_2_alg».proof.Proof.Gen.ReferenceIdeal.Read
import proofs.«400458_j63127429316797_2_alg».proof.Proof.KerFinal
import proofs.«400458_j63127429316797_2_alg».proof.Proof.RefFinal
import proofs.«400458_j63127429316797_2_alg».proof.Proof.Reals
import Idealize.ShloMosaic.Adequacy
import Idealize.ShloMosaic.Init

noncomputable section

namespace Cert.Proof

open Idealize.ShloMosaic Idealize.SL.Sem Cert.CpcSpec

/-- The word-level kernel runs and keeps its arguments (the table's side condition is trivially true). -/
theorem frame_k : Cert.frame_Kernel := fun m ρ _ => Cert.Kernel.Gen.frame m ρ trivial

/-- So does the idealized kernel. -/
theorem frame_ki : Cert.frame_KernelIdeal := fun m ρ _ => Cert.KernelIdeal.Gen.frame m ρ trivial

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the loss of the eight difference-reading scores of the kernel's arguments: the kernel by its
    run, the reference by its run read as the loss of the log-ratio scores, which agree because every entry is real. -/
theorem algebraic : Cert.algebraic_KernelIdeal_ReferenceIdeal := by
  intro m ρ m' ρ' hpre hagree
  refine ⟨fun c => (fun _ => loss (diffSteps (Cert.KerHost.a0 m c) (Cert.KerHost.a1 m c) (Cert.KerHost.a2 m c) (Cert.KerHost.negs m c))),
    Cert.KerArray.run m ρ trivial, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v140_eq, (hagree c).1, (hagree c).2.1, (hagree c).2.2.1, (hagree c).2.2.2]
  obtain ⟨hb, hc⟩ := Cert.Reals.allReal_of_finite _ _ _ _ (hpre c)
  have hn := Cert.Reals.negs_real (Cert.KerHost.a0 m c) (Cert.KerHost.a3 m c) hb
  funext i
  rw [Cert.RefSteps.result_eq]
  exact congrArg loss (ratioSteps_eq_diffSteps _ _ _ _ hb hc hn)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
